-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x16 : Shape := ⟨2, ![200000, 16]⟩
abbrev S4000000x1 : Shape := ⟨2, ![4000000, 1]⟩
abbrev S2x4000000 : Shape := ⟨2, ![2, 4000000]⟩
abbrev S16x16 : Shape := ⟨2, ![16, 16]⟩
abbrev S16 : Shape := ⟨1, ![16]⟩
abbrev S16x1 : Shape := ⟨2, ![16, 1]⟩
abbrev S16x32 : Shape := ⟨2, ![16, 32]⟩
abbrev S_ : Shape := ⟨0, ![]⟩

class Facts : Prop where
  bcast_S_S200000x16 : S_.BroadcastsInDim S200000x16 (![] : Fin 0 → Fin S200000x16.rank)
  reducesTo_S200000x16_S_d0_1 : S200000x16.ReducesTo [0, 1] S_
  h_S_ : 0 < S_.numel
  bcast_S_S4000000x1 : S_.BroadcastsInDim S4000000x1 (![] : Fin 0 → Fin S4000000x1.rank)
  reducesTo_S4000000x1_S_d0_1 : S4000000x1.ReducesTo [0, 1] S_
  bcast_S_S16x16 : S_.BroadcastsInDim S16x16 (![] : Fin 0 → Fin S16x16.rank)
  reducesTo_S16x16_S_d0_1 : S16x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S16x32 : S_.BroadcastsInDim S16x32 (![] : Fin 0 → Fin S16x32.rank)
  reducesTo_S16x32_S_d0_1 : S16x32.ReducesTo [0, 1] S_

variable [Facts]

def fn_part4 {F : FTy → Type} [FloatOps F] (main_arg15 : FVec F S16 .f32) (main_v63 : IVec S_ 1) (main_v67 : IVec S_ 1) : IVec S_ 1 :=
  let main_v68 : IVec S_ 1 := andi main_v63 main_v67
  let main_v69 : FVec F S16 .f32 := Host.absf main_arg15
  let main_cst_26 : FVec F S_ .f32 := constant S_ .f32 0x7F800000#32
  let main_v70 : FVec F S16 .f32 := broadcastInDim S16 ![] bcast_S_S16 main_cst_26
  let main_v71 : IVec S16 1 := cmpf .olt main_v69 main_v70
  let main_c_27 : IVec S_ 1 := constantI S_ 1 1#1
  let main_v72 : IVec S_ 1 := (fun x v => Host.reduce IntOp.andi x v reducesTo_S16_S_d0 h_S_) main_v71 main_c_27
  let main_v73 : IVec S_ 1 := andi main_v68 main_v72
  main_v73

def fn_part3 {F : FTy → Type} [FloatOps F] (main_arg12 : FVec F S16x32 .f32) (main_arg13 : FVec F S16 .f32) (main_arg14 : FVec F S16x16 .f32) (main_arg15 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x32 .f32 := Host.absf main_arg12
  let main_cst_20 : FVec F S_ .f32 := constant S_ .f32 0x7F800000#32
  let main_v55 : FVec F S16x32 .f32 := broadcastInDim S16x32 ![] bcast_S_S16x32 main_cst_20
  let main_v56 : IVec S16x32 1 := cmpf .olt main_v54 main_v55
  let main_c_21 : IVec S_ 1 := constantI S_ 1 1#1
  let main_v57 : IVec S_ 1 := (fun x v => Host.reduce IntOp.andi x v reducesTo_S16x32_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  let main_v64 : FVec F S16x16 .f32 := Host.absf main_arg14
  let main_cst_24 : FVec F S_ .f32 := constant S_ .f32 0x7F800000#32
  let main_v65 : FVec F S16x16 .f32 := broadcastInDim S16x16 ![] bcast_S_S16x16 main_cst_24
  let main_v66 : IVec S16x16 1 := cmpf .olt main_v64 main_v65
  let main_c_25 : IVec S_ 1 := constantI S_ 1 1#1
  let main_v67 : IVec S_ 1 := (fun x v => Host.reduce IntOp.andi x v reducesTo_S16x16_S_d0_1 h_S_) main_v66 main_c_25
  fn_part4 (F := F) main_arg15 main_v63 main_v67

def fn_part2 {F : FTy → Type} [FloatOps F] (main_arg8 : FVec F S16x16 .f32) (main_arg9 : FVec F S16 .f32) (main_arg10 : FVec F S16x16 .f32) (main_arg11 : FVec F S16 .f32) (main_arg12 : FVec F S16x32 .f32) (main_arg13 : FVec F S16 .f32) (main_arg14 : FVec F S16x16 .f32) (main_arg15 : FVec F S16 .f32) (main_v33 : IVec S_ 1) : IVec S_ 1 :=
  let main_v34 : FVec F S16x16 .f32 := Host.absf main_arg8
  let main_cst_12 : FVec F S_ .f32 := constant S_ .f32 0x7F800000#32
  let main_v35 : FVec F S16x16 .f32 := broadcastInDim S16x16 ![] bcast_S_S16x16 main_cst_12
  let main_v36 : IVec S16x16 1 := cmpf .olt main_v34 main_v35
  let main_c_13 : IVec S_ 1 := constantI S_ 1 1#1
  let main_v37 : IVec S_ 1 := (fun x v => Host.reduce IntOp.andi x v reducesTo_S16x16_S_d0_1 h_S_) main_v36 main_c_13
  let main_v38 : IVec S_ 1 := andi main_v33 main_v37
  let main_v39 : FVec F S16 .f32 := Host.absf main_arg9
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x16 .f32 := Host.absf main_arg10
  let main_cst_16 : FVec F S_ .f32 := constant S_ .f32 0x7F800000#32
  let main_v45 : FVec F S16x16 .f32 := broadcastInDim S16x16 ![] bcast_S_S16x16 main_cst_16
  let main_v46 : IVec S16x16 1 := cmpf .olt main_v44 main_v45
  let main_c_17 : IVec S_ 1 := constantI S_ 1 1#1
  let main_v47 : IVec S_ 1 := (fun x v => Host.reduce IntOp.andi x v reducesTo_S16x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_arg14 main_arg15 main_v48 main_v49 main_v50

def fn_part1 {F : FTy → Type} [FloatOps F] (main_arg5 : FVec F S16 .f32) (main_arg6 : FVec F S16x1 .f32) (main_arg7 : FVec F S16x16 .f32) (main_arg8 : FVec F S16x16 .f32) (main_arg9 : FVec F S16 .f32) (main_arg10 : FVec F S16x16 .f32) (main_arg11 : FVec F S16 .f32) (main_arg12 : FVec F S16x32 .f32) (main_arg13 : FVec F S16 .f32) (main_arg14 : FVec F S16x16 .f32) (main_arg15 : FVec F S16 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x1 .f32 := Host.absf main_arg6
  let main_cst_8 : FVec F S_ .f32 := constant S_ .f32 0x7F800000#32
  let main_v25 : FVec F S16x1 .f32 := broadcastInDim S16x1 ![] bcast_S_S16x1 main_cst_8
  let main_v26 : IVec S16x1 1 := cmpf .olt main_v24 main_v25
  let main_c_9 : IVec S_ 1 := constantI S_ 1 1#1
  let main_v27 : IVec S_ 1 := (fun x v => Host.reduce IntOp.andi x v reducesTo_S16x1_S_d0_1 h_S_) main_v26 main_c_9
  let main_v28 : IVec S_ 1 := andi main_v23 main_v27
  let main_v29 : FVec F S16x16 .f32 := Host.absf main_arg7
  let main_cst_10 : FVec F S_ .f32 := constant S_ .f32 0x7F800000#32
  let main_v30 : FVec F S16x16 .f32 := broadcastInDim S16x16 ![] bcast_S_S16x16 main_cst_10
  let main_v31 : IVec S16x16 1 := cmpf .olt main_v29 main_v30
  let main_c_11 : IVec S_ 1 := constantI S_ 1 1#1
  let main_v32 : IVec S_ 1 := (fun x v => Host.reduce IntOp.andi x v reducesTo_S16x16_S_d0_1 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S200000x16 .f32) (main_arg1 : FVec F S4000000x1 .f32) (main_arg2 : FVec F S200000x16 .f32) (main_arg3 : IVec S2x4000000 32) (main_arg4 : FVec F S16x16 .f32) (main_arg5 : FVec F S16 .f32) (main_arg6 : FVec F S16x1 .f32) (main_arg7 : FVec F S16x16 .f32) (main_arg8 : FVec F S16x16 .f32) (main_arg9 : FVec F S16 .f32) (main_arg10 : FVec F S16x16 .f32) (main_arg11 : FVec F S16 .f32) (main_arg12 : FVec F S16x32 .f32) (main_arg13 : FVec F S16 .f32) (main_arg14 : FVec F S16x16 .f32) (main_arg15 : FVec F S16 .f32) : IVec S_ 1 :=
  let main_v0 : FVec F S200000x16 .f32 := Host.absf main_arg0
  let main_cst : FVec F S_ .f32 := constant S_ .f32 0x7F800000#32
  let main_v1 : FVec F S200000x16 .f32 := broadcastInDim S200000x16 ![] bcast_S_S200000x16 main_cst
  let main_v2 : IVec S200000x16 1 := cmpf .olt main_v0 main_v1
  let main_c : IVec S_ 1 := constantI S_ 1 1#1
  let main_v3 : IVec S_ 1 := (fun x v => Host.reduce IntOp.andi x v reducesTo_S200000x16_S_d0_1 h_S_) main_v2 main_c
  let main_v4 : FVec F S4000000x1 .f32 := Host.absf main_arg1
  let main_cst_0 : FVec F S_ .f32 := constant S_ .f32 0x7F800000#32
  let main_v5 : FVec F S4000000x1 .f32 := broadcastInDim S4000000x1 ![] bcast_S_S4000000x1 main_cst_0
  let main_v6 : IVec S4000000x1 1 := cmpf .olt main_v4 main_v5
  let main_c_1 : IVec S_ 1 := constantI S_ 1 1#1
  let main_v7 : IVec S_ 1 := (fun x v => Host.reduce IntOp.andi x v reducesTo_S4000000x1_S_d0_1 h_S_) main_v6 main_c_1
  let main_v8 : IVec S_ 1 := andi main_v3 main_v7
  let main_v9 : FVec F S200000x16 .f32 := Host.absf main_arg2
  let main_cst_2 : FVec F S_ .f32 := constant S_ .f32 0x7F800000#32
  let main_v10 : FVec F S200000x16 .f32 := broadcastInDim S200000x16 ![] bcast_S_S200000x16 main_cst_2
  let main_v11 : IVec S200000x16 1 := cmpf .olt main_v9 main_v10
  let main_c_3 : IVec S_ 1 := constantI S_ 1 1#1
  let main_v12 : IVec S_ 1 := (fun x v => Host.reduce IntOp.andi x v reducesTo_S200000x16_S_d0_1 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S200000x16 : Shape := ⟨2, ![200000, 16]⟩
abbrev S4000000x1 : Shape := ⟨2, ![4000000, 1]⟩
abbrev S2x4000000 : Shape := ⟨2, ![2, 4000000]⟩
abbrev S16x16 : Shape := ⟨2, ![16, 16]⟩
abbrev S16 : Shape := ⟨1, ![16]⟩
abbrev S16x1 : Shape := ⟨2, ![16, 1]⟩
abbrev S16x32 : Shape := ⟨2, ![16, 32]⟩
abbrev S1x4000000 : Shape := ⟨2, ![1, 4000000]⟩
abbrev S4000000 : Shape := ⟨1, ![4000000]⟩
abbrev S_ : Shape := ⟨0, ![]⟩
abbrev S4000000x16 : Shape := ⟨2, ![4000000, 16]⟩
abbrev S4001792x16 : Shape := ⟨2, ![4001792, 16]⟩
abbrev S4001792x1 : Shape := ⟨2, ![4001792, 1]⟩
abbrev S4096x16 : Shape := ⟨2, ![4096, 16]⟩
abbrev S4096x1 : Shape := ⟨2, ![4096, 1]⟩
abbrev S1x16 : Shape := ⟨2, ![1, 16]⟩
abbrev S4000x16 : Shape := ⟨2, ![4000, 16]⟩
abbrev S4000x32 : Shape := ⟨2, ![4000, 32]⟩
abbrev S32x16 : Shape := ⟨2, ![32, 16]⟩

abbrev nBuf : Space → Nat
  | .hbm => 54
  | .vmem => 26
  | .smem => 0
  | _ => 0

abbrev bufTy : (tb : Table) → Fin (tcTables nBuf tb) → BufTy
  | .hbm, ⟨0, _⟩ => ⟨S200000x16, .f32⟩
  | .hbm, ⟨1, _⟩ => ⟨S4000000x1, .f32⟩
  | .hbm, ⟨2, _⟩ => ⟨S200000x16, .f32⟩
  | .hbm, ⟨3, _⟩ => ⟨S2x4000000, .i32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S16x32, .f32⟩
  | .hbm, ⟨13, _⟩ => ⟨S16, .f32⟩
  | .hbm, ⟨14, _⟩ => ⟨S16x16, .f32⟩
  | .hbm, ⟨15, _⟩ => ⟨S16, .f32⟩
  | .hbm, ⟨16, _⟩ => ⟨S1x4000000, .i32⟩
  | .hbm, ⟨17, _⟩ => ⟨S4000000, .i32⟩
  | .hbm, ⟨18, _⟩ => ⟨S1x4000000, .i32⟩
  | .hbm, ⟨19, _⟩ => ⟨S4000000, .i32⟩
  | .hbm, ⟨20, _⟩ => ⟨S_, .i32⟩
  | .hbm, ⟨21, _⟩ => ⟨S4000000, .i32⟩
  | .hbm, ⟨22, _⟩ => ⟨S4000000, .i1⟩
  | .hbm, ⟨23, _⟩ => ⟨S_, .i32⟩
  | .hbm, ⟨24, _⟩ => ⟨S4000000, .i32⟩
  | .hbm, ⟨25, _⟩ => ⟨S4000000, .i32⟩
  | .hbm, ⟨26, _⟩ => ⟨S4000000, .i32⟩
  | .hbm, ⟨27, _⟩ => ⟨S4000000x1, .i32⟩
  | .hbm, ⟨28, _⟩ => ⟨S4000000x16, .f32⟩
  | .hbm, ⟨29, _⟩ => ⟨S_, .i32⟩
  | .hbm, ⟨30, _⟩ => ⟨S4000000, .i32⟩
  | .hbm, ⟨31, _⟩ => ⟨S4000000, .i1⟩
  | .hbm, ⟨32, _⟩ => ⟨S_, .i32⟩
  | .hbm, ⟨33, _⟩ => ⟨S4000000, .i32⟩
  | .hbm, ⟨34, _⟩ => ⟨S4000000, .i32⟩
  | .hbm, ⟨35, _⟩ => ⟨S4000000, .i32⟩
  | .hbm, ⟨36, _⟩ => ⟨S4000000x1, .i32⟩
  | .hbm, ⟨37, _⟩ => ⟨S4000000x16, .f32⟩
  | .hbm, ⟨38, _⟩ => ⟨S_, .i32⟩
  | .hbm, ⟨39, _⟩ => ⟨S_, .f32⟩
  | .hbm, ⟨40, _⟩ => ⟨S4001792x16, .f32⟩
  | .hbm, ⟨41, _⟩ => ⟨S_, .i32⟩
  | .hbm, ⟨42, _⟩ => ⟨S_, .f32⟩
  | .hbm, ⟨43, _⟩ => ⟨S4001792x16, .f32⟩
  | .hbm, ⟨44, _⟩ => ⟨S_, .i32⟩
  | .hbm, ⟨45, _⟩ => ⟨S_, .f32⟩
  | .hbm, ⟨46, _⟩ => ⟨S4001792x1, .f32⟩
  | .hbm, ⟨47, _⟩ => ⟨S4001792x16, .f32⟩
  | .hbm, ⟨48, _⟩ => ⟨S4000000x16, .f32⟩
  | .hbm, ⟨49, _⟩ => ⟨S_, .f32⟩
  | .hbm, ⟨50, _⟩ => ⟨S200000x16, .f32⟩
  | .hbm, ⟨51, _⟩ => ⟨S4000000x1, .i32⟩
  | .hbm, ⟨52, _⟩ => ⟨S200000x16, .f32⟩
  | .hbm, ⟨53, _⟩ => ⟨S200000x16, .f32⟩
  | .local _ .vmem, ⟨0, _⟩ => ⟨S4096x16, .f32⟩
  | .local _ .vmem, ⟨1, _⟩ => ⟨S4096x16, .f32⟩
  | .local _ .vmem, ⟨2, _⟩ => ⟨S4096x1, .f32⟩
  | .local _ .vmem, ⟨3, _⟩ => ⟨S4096x1, .f32⟩
  | .local _ .vmem, ⟨4, _⟩ => ⟨S4096x16, .f32⟩
  | .local _ .vmem, ⟨5, _⟩ => ⟨S4096x16, .f32⟩
  | .local _ .vmem, ⟨6, _⟩ => ⟨S16x16, .f32⟩
  | .local _ .vmem, ⟨7, _⟩ => ⟨S16, .f32⟩
  | .local _ .vmem, ⟨8, _⟩ => ⟨S16x1, .f32⟩
  | .local _ .vmem, ⟨9, _⟩ => ⟨S16x16, .f32⟩
  | .local _ .vmem, ⟨10, _⟩ => ⟨S16x16, .f32⟩
  | .local _ .vmem, ⟨11, _⟩ => ⟨S16, .f32⟩
  | .local _ .vmem, ⟨12, _⟩ => ⟨S4096x16, .f32⟩
  | .local _ .vmem, ⟨13, _⟩ => ⟨S4096x16, .f32⟩
  | .local _ .vmem, ⟨14, _⟩ => ⟨S4000x16, .f32⟩
  | .local _ .vmem, ⟨15, _⟩ => ⟨S4000x16, .f32⟩
  | .local _ .vmem, ⟨16, _⟩ => ⟨S4000x16, .f32⟩
  | .local _ .vmem, ⟨17, _⟩ => ⟨S4000x16, .f32⟩
  | .local _ .vmem, ⟨18, _⟩ => ⟨S16x16, .f32⟩
  | .local _ .vmem, ⟨19, _⟩ => ⟨S16, .f32⟩
  | .local _ .vmem, ⟨20, _⟩ => ⟨S16x32, .f32⟩
  | .local _ .vmem, ⟨21, _⟩ => ⟨S16, .f32⟩
  | .local _ .vmem, ⟨22, _⟩ => ⟨S16x16, .f32⟩
  | .local _ .vmem, ⟨23, _⟩ => ⟨S16, .f32⟩
  | .local _ .vmem, ⟨24, _⟩ => ⟨S4000x16, .f32⟩
  | .local _ .vmem, ⟨25, _⟩ => ⟨S4000x16, .f32⟩
  | _, _ => ⟨S200000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_c_3 : Ref sig .tc := ⟨.hbm, 38, rfl⟩
abbrev main_call0_v0 : Ref sig .tc := ⟨.hbm, 39, rfl⟩
abbrev main_v18 : Ref sig .tc := ⟨.hbm, 40, rfl⟩
abbrev main_c_4 : Ref sig .tc := ⟨.hbm, 41, rfl⟩
abbrev main_call1_v0 : Ref sig .tc := ⟨.hbm, 42, rfl⟩
abbrev main_v19 : Ref sig .tc := ⟨.hbm, 43, rfl⟩
abbrev main_c_5 : Ref sig .tc := ⟨.hbm, 44, rfl⟩
abbrev main_call2_v0 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_cst : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![977], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4096x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x16 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  pads_S4000000x16_S4001792x16_017920_000 : S4000000x16.Pads (![0, 0] : Fin 2 → Nat) ![1792, 0] ![0, 0] S4001792x16
  h_S_ : 0 < S_.numel
  pads_S4000000x1_S4001792x1_017920_000 : S4000000x1.Pads (![0, 0] : Fin 2 → Nat) ![1792, 0] ![0, 0] S4001792x1
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  bitsLt_bf16_f32 : FTy.bits .bf16 < FTy.bits .f32
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  inb_S16x16_S16x16_0_0 : ∀ a, (![0, 0] : Fin 2 → Nat) a + S16x16.size a ≤ S16x16.size a
  h_S16x16 : 0 < S16x16.numel
  inb_S16x1_S16x1_0_0 : ∀ a, (![0, 0] : Fin 2 → Nat) a + S16x1.size a ≤ S16x1.size a
  h_S16x1 : 0 < S16x1.numel
  transposes_S16x16_p1_0_S16x16 : S16x16.Transposes [1, 0] S16x16
  inb_S16_S16_0 : ∀ a, (![0] : Fin 1 → Nat) a + S16.size a ≤ S16.size a
  h_S16 : 0 < S16.numel
  shapeCasts_S16_S1x16 : S16.ShapeCasts S1x16
  broadcasts_S1x16_S4096x16 : S1x16.Broadcasts S4096x16
  transposes_S16x1_p1_0_S1x16 : S16x1.Transposes [1, 0] S1x16
  slices_S4001792x16_S4000000x16_0_0 : S4001792x16.Slices ![0, 0] S4000000x16
  bcast_S_S200000x16 : S_.BroadcastsInDim S200000x16 (![] : Fin 0 → Fin S200000x16.rank)
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  broadcasts_S1x16_S4000x16 : S1x16.Broadcasts S4000x16
  concatenates_S4000x16_S4000x16_S4000x32_d1 : Shape.Concatenates [S4000x16, S4000x16] S4000x32 1
  inb_S16x32_S16x32_0_0 : ∀ a, (![0, 0] : Fin 2 → Nat) a + S16x32.size a ≤ S16x32.size a
  h_S16x32 : 0 < S16x32.numel
  transposes_S16x32_p1_0_S32x16 : S16x32.Transposes [1, 0] S32x16
  gather_S200000x16_S4000000x1_S4000000x16_1_0_n_n_0_1_116_wf : GatherDims.WF S200000x16 S4000000x1 S4000000x16 [1] [0] [] [0] [] 1 ![1, 16]
  dot_S4096x16_S16x16_S4096x16_1_0_0_1_n_n_wf : DotDims.WF S4096x16 S16x16 S4096x16 [1] [0] [0] [1] [] []
  dot_S4096x1_S1x16_S4096x16_1_0_0_1_n_n_wf : DotDims.WF S4096x1 S1x16 S4096x16 [1] [0] [0] [1] [] []
  scatter_S200000x16_S4000000x1_S4000000x16_1_0_0_1_wf : ScatterDims.WF S200000x16 S4000000x1 S4000000x16 [1] [0] [0] 1
  dot_S4000x16_S16x16_S4000x16_1_0_0_1_n_n_wf : DotDims.WF S4000x16 S16x16 S4000x16 [1] [0] [0] [1] [] []
  dot_S4000x32_S32x16_S4000x16_1_0_0_1_n_n_wf : DotDims.WF S4000x32 S32x16 S4000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x16.size a ≤ S4001792x16.size a
  hwx0_0 : ∀ i : grid0.Coords, EltTy.bits .f32 = 32 ∨ (Rect.block (s := S4001792x16) S4096x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4001792x1.size a
  hwx0_1 : ∀ i : grid0.Coords, EltTy.bits .f32 = 32 ∨ (Rect.block (s := S4001792x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x16.size a ≤ S4001792x16.size a
  hwx0_2 : ∀ i : grid0.Coords, EltTy.bits .f32 = 32 ∨ (Rect.block (s := S4001792x16) S4096x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x1.size a ≤ S16x1.size a
  hwx0_5 : ∀ i : grid0.Coords, EltTy.bits .f32 = 32 ∨ (Rect.block (s := S16x1) S16x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x16.size a ≤ S16x16.size a
  hwx0_6 : ∀ i : grid0.Coords, EltTy.bits .f32 = 32 ∨ (Rect.block (s := S16x16) S16x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S16.size a ≤ S16.size a
  hwx0_8 : ∀ i : grid0.Coords, EltTy.bits .f32 = 32 ∨ (Rect.block (s := S16) S16.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4096x16.size a ≤ S4001792x16.size a
  hwx0_9 : ∀ i : grid0.Coords, EltTy.bits .f32 = 32 ∨ (Rect.block (s := S4001792x16) S4096x16.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S200000x16.size a
  hwx1_0 : ∀ i : grid1.Coords, EltTy.bits .f32 = 32 ∨ (Rect.block (s := S200000x16) S4000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S200000x16.size a
  hwx1_1 : ∀ i : grid1.Coords, EltTy.bits .f32 = 32 ∨ (Rect.block (s := S200000x16) S4000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16.size a ≤ S16.size a
  hwx1_3 : ∀ i : grid1.Coords, EltTy.bits .f32 = 32 ∨ (Rect.block (s := S16) S16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16.size a ≤ S16.size a
  hwx1_5 : ∀ i : grid1.Coords, EltTy.bits .f32 = 32 ∨ (Rect.block (s := S16) S16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x16.size a ≤ S16x16.size a
  hwx1_6 : ∀ i : grid1.Coords, EltTy.bits .f32 = 32 ∨ (Rect.block (s := S16x16) S16x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16.size a ≤ S16.size a
  hwx1_7 : ∀ i : grid1.Coords, EltTy.bits .f32 = 32 ∨ (Rect.block (s := S16) S16.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x16.size a ≤ S200000x16.size a
  hwx1_8 : ∀ i : grid1.Coords, EltTy.bits .f32 = 32 ∨ (Rect.block (s := S200000x16) S4000x16.size (cc1_transform_8 i) (hinb1_8 i)).WholeWords (EltTy.packing .f32)

variable [Facts₀]

def gather_S200000x16_S4000000x1_S4000000x16_1_0_n_n_0_1_116 : GatherDims S200000x16 S4000000x1 S4000000x16 where
  offsetDims := [1]
  collapsedSliceDims := [0]
  operandBatchingDims := []
  startIndicesBatchingDims := []
  startIndexMap := [0]
  indexVectorDim := 1
  sliceSizes := ![1, 16]
  wf := gather_S200000x16_S4000000x1_S4000000x16_1_0_n_n_0_1_116_wf
def dot_S4096x16_S16x16_S4096x16_1_0_0_1_n_n : DotDims S4096x16 S16x16 S4096x16 where
  lhsContracting := [1]
  rhsContracting := [0]
  lhsNonContracting := [0]
  rhsNonContracting := [1]
  lhsBatch := []
  rhsBatch := []
  wf := dot_S4096x16_S16x16_S4096x16_1_0_0_1_n_n_wf
def dot_S4096x1_S1x16_S4096x16_1_0_0_1_n_n : DotDims S4096x1 S1x16 S4096x16 where
  lhsContracting := [1]
  rhsContracting := [0]
  lhsNonContracting := [0]
  rhsNonContracting := [1]
  lhsBatch := []
  rhsBatch := []
  wf := dot_S4096x1_S1x16_S4096x16_1_0_0_1_n_n_wf
def scatter_S200000x16_S4000000x1_S4000000x16_1_0_0_1 : ScatterDims S200000x16 S4000000x1 S4000000x16 where
  updateWindowDims := [1]
  insertedWindowDims := [0]
  scatterDimsToOperandDims := [0]
  indexVectorDim := 1
  wf := scatter_S200000x16_S4000000x1_S4000000x16_1_0_0_1_wf
def dot_S4000x16_S16x16_S4000x16_1_0_0_1_n_n : DotDims S4000x16 S16x16 S4000x16 where
  lhsContracting := [1]
  rhsContracting := [0]
  lhsNonContracting := [0]
  rhsNonContracting := [1]
  lhsBatch := []
  rhsBatch := []
  wf := dot_S4000x16_S16x16_S4000x16_1_0_0_1_n_n_wf
def dot_S4000x32_S32x16_S4000x16_1_0_0_1_n_n : DotDims S4000x32 S32x16 S4000x16 where
  lhsContracting := [1]
  rhsContracting := [0]
  lhsNonContracting := [0]
  rhsNonContracting := [1]
  lhsBatch := []
  rhsBatch := []
  wf := dot_S4000x32_S32x16_S4000x16_1_0_0_1_n_n_wf

abbrev win0_0 : Pipeline.Window sig grid0 :=
  Pipeline.Window.ofSpec (Memref.whole main_v18) S4096x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4096x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S16x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S16x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S4096x16.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v25) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S16x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v26) S4000x16.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S200000x16 : Shape := ⟨2, ![200000, 16]⟩
abbrev S4000000x1 : Shape := ⟨2, ![4000000, 1]⟩
abbrev S2x4000000 : Shape := ⟨2, ![2, 4000000]⟩
abbrev S16x16 : Shape := ⟨2, ![16, 16]⟩
abbrev S16 : Shape := ⟨1, ![16]⟩
abbrev S16x1 : Shape := ⟨2, ![16, 1]⟩
abbrev S16x32 : Shape := ⟨2, ![16, 32]⟩
abbrev S1x4000000 : Shape := ⟨2, ![1, 4000000]⟩
abbrev S4000000 : Shape := ⟨1, ![4000000]⟩
abbrev S_ : Shape := ⟨0, ![]⟩
abbrev S4000000x16 : Shape := ⟨2, ![4000000, 16]⟩
abbrev S1x16 : Shape := ⟨2, ![1, 16]⟩
abbrev S200000x32 : Shape := ⟨2, ![200000, 32]⟩
abbrev S32x16 : Shape := ⟨2, ![32, 16]⟩

abbrev nBuf : Space → Nat
  | .hbm => 83
  | .vmem => 0
  | .smem => 0
  | _ => 0

abbrev bufTy : (tb : Table) → Fin (tcTables nBuf tb) → BufTy
  | .hbm, ⟨0, _⟩ => ⟨S200000x16, .f32⟩
  | .hbm, ⟨1, _⟩ => ⟨S4000000x1, .f32⟩
  | .hbm, ⟨2, _⟩ => ⟨S200000x16, .f32⟩
  | .hbm, ⟨3, _⟩ => ⟨S2x4000000, .i32⟩
  | .hbm, ⟨4, _⟩ => ⟨S16x16, .f32⟩
  | .hbm, ⟨5, _⟩ => ⟨S16, .f32⟩
  | .hbm, ⟨6, _⟩ => ⟨S16x1, .f32⟩
  | .hbm, ⟨7, _⟩ => ⟨S16x16, .f32⟩
  | .hbm, ⟨8, _⟩ => ⟨S16x16, .f32⟩
  | .hbm, ⟨9, _⟩ => ⟨S16, .f32⟩
  | .hbm, ⟨10, _⟩ => ⟨S16x16, .f32⟩
  | .hbm, ⟨11, _⟩ => ⟨S16, .f32⟩
  | .hbm, ⟨12, _⟩ => ⟨S16x32, .f32⟩
  | .hbm, ⟨13, _⟩ => ⟨S16, .f32⟩
  | .hbm, ⟨14, _⟩ => ⟨S16x16, .f32⟩
  | .hbm, ⟨15, _⟩ => ⟨S16, .f32⟩
  | .hbm, ⟨16, _⟩ => ⟨S1x4000000, .i32⟩
  | .hbm, ⟨17, _⟩ => ⟨S4000000, .i32⟩
  | .hbm, ⟨18, _⟩ => ⟨S1x4000000, .i32⟩
  | .hbm, ⟨19, _⟩ => ⟨S4000000, .i32⟩
  | .hbm, ⟨20, _⟩ => ⟨S_, .i32⟩
  | .hbm, ⟨21, _⟩ => ⟨S4000000, .i32⟩
  | .hbm, ⟨22, _⟩ => ⟨S4000000, .i1⟩
  | .hbm, ⟨23, _⟩ => ⟨S_, .i32⟩
  | .hbm, ⟨24, _⟩ => ⟨S4000000, .i32⟩
  | .hbm, ⟨25, _⟩ => ⟨S4000000, .i32⟩
  | .hbm, ⟨26, _⟩ => ⟨S4000000, .i32⟩
  | .hbm, ⟨27, _⟩ => ⟨S4000000x1, .i32⟩
  | .hbm, ⟨28, _⟩ => ⟨S4000000x16, .f32⟩
  | .hbm, ⟨29, _⟩ => ⟨S16x16, .f32⟩
  | .hbm, ⟨30, _⟩ => ⟨S4000000x16, .f32⟩
  | .hbm, ⟨31, _⟩ => ⟨S1x16, .f32⟩
  | .hbm, ⟨32, _⟩ => ⟨S4000000x16, .f32⟩
  | .hbm, ⟨33, _⟩ => ⟨S4000000x16, .f32⟩
  | .hbm, ⟨34, _⟩ => ⟨S1x16, .f32⟩
  | .hbm, ⟨35, _⟩ => ⟨S4000000x16, .f32⟩
  | .hbm, ⟨36, _⟩ => ⟨S4000000x16, .f32⟩
  | .hbm, ⟨37, _⟩ => ⟨S_, .i32⟩
  | .hbm, ⟨38, _⟩ => ⟨S4000000, .i32⟩
  | .hbm, ⟨39, _⟩ => ⟨S4000000, .i1⟩
  | .hbm, ⟨40, _⟩ => ⟨S_, .i32⟩
  | .hbm, ⟨41, _⟩ => ⟨S4000000, .i32⟩
  | .hbm, ⟨42, _⟩ => ⟨S4000000, .i32⟩
  | .hbm, ⟨43, _⟩ => ⟨S4000000, .i32⟩
  | .hbm, ⟨44, _⟩ => ⟨S4000000x1, .i32⟩
  | .hbm, ⟨45, _⟩ => ⟨S4000000x16, .f32⟩
  | .hbm, ⟨46, _⟩ => ⟨S16x16, .f32⟩
  | .hbm, ⟨47, _⟩ => ⟨S4000000x16, .f32⟩
  | .hbm, ⟨48, _⟩ => ⟨S4000000x16, .f32⟩
  | .hbm, ⟨49, _⟩ => ⟨S_, .f32⟩
  | .hbm, ⟨50, _⟩ => ⟨S4000000x16, .f32⟩
  | .hbm, ⟨51, _⟩ => ⟨S4000000x16, .f32⟩
  | .hbm, ⟨52, _⟩ => ⟨S16x16, .f32⟩
  | .hbm, ⟨53, _⟩ => ⟨S4000000x16, .f32⟩
  | .hbm, ⟨54, _⟩ => ⟨S1x16, .f32⟩
  | .hbm, ⟨55, _⟩ => ⟨S4000000x16, .f32⟩
  | .hbm, ⟨56, _⟩ => ⟨S4000000x16, .f32⟩
  | .hbm, ⟨57, _⟩ => ⟨S_, .f32⟩
  | .hbm, ⟨58, _⟩ => ⟨S200000x16, .f32⟩
  | .hbm, ⟨59, _⟩ => ⟨S4000000x1, .i32⟩
  | .hbm, ⟨60, _⟩ => ⟨S200000x16, .f32⟩
  | .hbm, ⟨61, _⟩ => ⟨S_, .f32⟩
  | .hbm, ⟨62, _⟩ => ⟨S200000x16, .f32⟩
  | .hbm, ⟨63, _⟩ => ⟨S200000x16, .f32⟩
  | .hbm, ⟨64, _⟩ => ⟨S16x16, .f32⟩
  | .hbm, ⟨65, _⟩ => ⟨S200000x16, .f32⟩
  | .hbm, ⟨66, _⟩ => ⟨S1x16, .f32⟩
  | .hbm, ⟨67, _⟩ => ⟨S200000x16, .f32⟩
  | .hbm, ⟨68, _⟩ => ⟨S200000x16, .f32⟩
  | .hbm, ⟨69, _⟩ => ⟨S200000x32, .f32⟩
  | .hbm, ⟨70, _⟩ => ⟨S32x16, .f32⟩
  | .hbm, ⟨71, _⟩ => ⟨S200000x16, .f32⟩
  | .hbm, ⟨72, _⟩ => ⟨S1x16, .f32⟩
  | .hbm, ⟨73, _⟩ => ⟨S200000x16, .f32⟩
  | .hbm, ⟨74, _⟩ => ⟨S200000x16, .f32⟩
  | .hbm, ⟨75, _⟩ => ⟨S_, .f32⟩
  | .hbm, ⟨76, _⟩ => ⟨S200000x16, .f32⟩
  | .hbm, ⟨77, _⟩ => ⟨S200000x16, .f32⟩
  | .hbm, ⟨78, _⟩ => ⟨S16x16, .f32⟩
  | .hbm, ⟨79, _⟩ => ⟨S200000x16, .f32⟩
  | .hbm, ⟨80, _⟩ => ⟨S1x16, .f32⟩
  | .hbm, ⟨81, _⟩ => ⟨S200000x16, .f32⟩
  | .hbm, ⟨82, _⟩ => ⟨S200000x16, .f32⟩
  | _, _ => ⟨S200000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_call1_cst : Ref sig .tc := ⟨.hbm, 61, rfl⟩
abbrev main_call1_v0 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call2_cst : Ref sig .tc := ⟨.hbm, 75, rfl⟩
abbrev main_call2_v0 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]

class Facts₀ : Prop where
  slices_S2x4000000_S1x4000000_0_0 : S2x4000000.Slices ![0, 0] S1x4000000
  shapeCasts_S1x4000000_S4000000 : S1x4000000.ShapeCasts S4000000
  slices_S2x4000000_S1x4000000_1_0 : S2x4000000.Slices ![1, 0] S1x4000000
  bcast_S_S4000000 : S_.BroadcastsInDim S4000000 (![] : Fin 0 → Fin S4000000.rank)
  bcast_S4000000_S4000000x1_0 : S4000000.BroadcastsInDim S4000000x1 (![0] : Fin 1 → Fin S4000000x1.rank)
  transposes_S16x16_S16x16_1_0 : S16x16.Transposes [1, 0] S16x16
  bcast_S16_S1x16_1 : S16.BroadcastsInDim S1x16 (![1] : Fin 1 → Fin S1x16.rank)
  bcast_S1x16_S4000000x16_0_1 : S1x16.BroadcastsInDim S4000000x16 (![0, 1] : Fin 2 → Fin S4000000x16.rank)
  transposes_S16x1_S1x16_1_0 : S16x1.Transposes [1, 0] S1x16
  bcast_S_S4000000x16 : S_.BroadcastsInDim S4000000x16 (![] : Fin 0 → Fin S4000000x16.rank)
  bcast_S_S200000x16 : S_.BroadcastsInDim S200000x16 (![] : Fin 0 → Fin S200000x16.rank)
  bcast_S1x16_S200000x16_0_1 : S1x16.BroadcastsInDim S200000x16 (![0, 1] : Fin 2 → Fin S200000x16.rank)
  concatenates_S200000x16_S200000x16_S200000x32_d1 : Shape.Concatenates [S200000x16, S200000x16] S200000x32 1
  transposes_S16x32_S32x16_1_0 : S16x32.Transposes [1, 0] S32x16
  gather_S200000x16_S4000000x1_S4000000x16_1_0_n_n_0_1_116_wf : GatherDims.WF S200000x16 S4000000x1 S4000000x16 [1] [0] [] [0] [] 1 ![1, 16]
  dot_S4000000x16_S16x16_S4000000x16_1_0_0_1_n_n_wf : DotDims.WF S4000000x16 S16x16 S4000000x16 [1] [0] [0] [1] [] []
  dot_S4000000x1_S1x16_S4000000x16_1_0_0_1_n_n_wf : DotDims.WF S4000000x1 S1x16 S4000000x16 [1] [0] [0] [1] [] []
  scatter_S200000x16_S4000000x1_S4000000x16_1_0_0_1_wf : ScatterDims.WF S200000x16 S4000000x1 S4000000x16 [1] [0] [0] 1
  dot_S200000x16_S16x16_S200000x16_1_0_0_1_n_n_wf : DotDims.WF S200000x16 S16x16 S200000x16 [1] [0] [0] [1] [] []
  dot_S200000x32_S32x16_S200000x16_1_0_0_1_n_n_wf : DotDims.WF S200000x32 S32x16 S200000x16 [1] [0] [0] [1] [] []

variable [Facts₀]

def gather_S200000x16_S4000000x1_S4000000x16_1_0_n_n_0_1_116 : GatherDims S200000x16 S4000000x1 S4000000x16 where
  offsetDims := [1]
  collapsedSliceDims := [0]
  operandBatchingDims := []
  startIndicesBatchingDims := []
  startIndexMap := [0]
  indexVectorDim := 1
  sliceSizes := ![1, 16]
  wf := gather_S200000x16_S4000000x1_S4000000x16_1_0_n_n_0_1_116_wf
def dot_S4000000x16_S16x16_S4000000x16_1_0_0_1_n_n : DotDims S4000000x16 S16x16 S4000000x16 where
  lhsContracting := [1]
  rhsContracting := [0]
  lhsNonContracting := [0]
  rhsNonContracting := [1]
  lhsBatch := []
  rhsBatch := []
  wf := dot_S4000000x16_S16x16_S4000000x16_1_0_0_1_n_n_wf
def dot_S4000000x1_S1x16_S4000000x16_1_0_0_1_n_n : DotDims S4000000x1 S1x16 S4000000x16 where
  lhsContracting := [1]
  rhsContracting := [0]
  lhsNonContracting := [0]
  rhsNonContracting := [1]
  lhsBatch := []
  rhsBatch := []
  wf := dot_S4000000x1_S1x16_S4000000x16_1_0_0_1_n_n_wf
def scatter_S200000x16_S4000000x1_S4000000x16_1_0_0_1 : ScatterDims S200000x16 S4000000x1 S4000000x16 where
  updateWindowDims := [1]
  insertedWindowDims := [0]
  scatterDimsToOperandDims := [0]
  indexVectorDim := 1
  wf := scatter_S200000x16_S4000000x1_S4000000x16_1_0_0_1_wf
def dot_S200000x16_S16x16_S200000x16_1_0_0_1_n_n : DotDims S200000x16 S16x16 S200000x16 where
  lhsContracting := [1]
  rhsContracting := [0]
  lhsNonContracting := [0]
  rhsNonContracting := [1]
  lhsBatch := []
  rhsBatch := []
  wf := dot_S200000x16_S16x16_S200000x16_1_0_0_1_n_n_wf
def dot_S200000x32_S32x16_S200000x16_1_0_0_1_n_n : DotDims S200000x32 S32x16 S200000x16 where
  lhsContracting := [1]
  rhsContracting := [0]
  lhsNonContracting := [0]
  rhsNonContracting := [1]
  lhsBatch := []
  rhsBatch := []
  wf := dot_S200000x32_S32x16_S200000x16_1_0_0_1_n_n_wf

class Facts : Prop extends Facts₀ where

variable [Facts]
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.Spec.lean ====
/-
  The mathematics of one round of message passing on a bipartite graph, row by row on the extended reals.

  An edge's message is an affine layer applied to the rectified sum of three contributions: an affine layer of the
  left endpoint's features, a bias-free product of the edge's own feature, a bias-free product of the right
  endpoint's features.  A right node's output is an affine layer of the rectified affine layer of the 32-wide row made
  of (an affine layer of the node's rectified aggregate) followed by (the node's own features).

  Every layer is "row times the transpose of a weight matrix, plus a bias", so one entry of a layer's output is a sum
  over the row's coordinates.  Stated once here for the vector unit's product (into a zero accumulator, operands cast
  to a narrower float format, which on the extended reals changes nothing) and once for the host's, for any number of
  rows: the two programs then differ only in how many rows they treat at a time.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import proofs.«122030_j60610578481387_1_alg».proof.Proof.LibMatmulPlain

noncomputable section

namespace Cert.EdgeAgg

open Idealize.ShloMosaic Idealize.ShloMosaic.ValueIdx Cert.Gcn

/-! ## Rows -/

/-- The rectifier: the larger of `x` and the value of the all-zero word. -/
def relu (x : EReal) : EReal := max x (Ideal.ofBits .f32 0x00000000#32)

/-- Coordinate `q` of a row of width `K` times the transpose of a `16 × K` matrix: `∑ l, x l · W q l`. -/
def rowMul {K : ℕ} (x : Fin K → EReal) (W : (⟨2, ![16, K]⟩ : Shape).Idx → EReal) (q : Fin 16) : EReal :=
  ∑ l : Fin K, x l * W (ix2 q l)

/-- The same with a bias added: one affine layer. -/
def rowLin {K : ℕ} (x : Fin K → EReal) (W : (⟨2, ![16, K]⟩ : Shape).Idx → EReal) (b : (⟨1, ![16]⟩ : Shape).Idx → EReal)
    (q : Fin 16) : EReal :=
  rowMul x W q + b (ix1 q)

/-- Two rows of width 16 laid side by side. -/
def rowCat (a b : Fin 16 → EReal) (l : Fin 32) : EReal :=
  if h : l.val < 16 then a ⟨l.val, h⟩ else b ⟨l.val - 16, by have := l.isLt; omega⟩

/-- An edge's message from the left endpoint's row, the edge's feature and the right endpoint's row. -/
def edgeRow (gl : Fin 16 → EReal) (ef : Fin 1 → EReal) (gr : Fin 16 → EReal)
    (Wl : (⟨2, ![16, 16]⟩ : Shape).Idx → EReal) (bl : (⟨1, ![16]⟩ : Shape).Idx → EReal)
    (We : (⟨2, ![16, 1]⟩ : Shape).Idx → EReal) (Wr : (⟨2, ![16, 16]⟩ : Shape).Idx → EReal)
    (Wf : (⟨2, ![16, 16]⟩ : Shape).Idx → EReal) (bf : (⟨1, ![16]⟩ : Shape).Idx → EReal) (q : Fin 16) : EReal :=
  rowLin (fun k => relu ((rowLin gl Wl bl k + rowMul ef We k) + rowMul gr Wr k)) Wf bf q

/-- A right node's output from its aggregated messages and its own features. -/
def postRow (agg rf : Fin 16 → EReal)
    (Wp : (⟨2, ![16, 16]⟩ : Shape).Idx → EReal) (bp : (⟨1, ![16]⟩ : Shape).Idx → EReal)
    (W1 : (⟨2, ![16, 32]⟩ : Shape).Idx → EReal) (b1 : (⟨1, ![16]⟩ : Shape).Idx → EReal)
    (W2 : (⟨2, ![16, 16]⟩ : Shape).Idx → EReal) (b2 : (⟨1, ![16]⟩ : Shape).Idx → EReal) (q : Fin 16) : EReal :=
  rowLin (fun k => relu (rowLin (rowCat (fun l => rowLin (fun i => relu (agg i)) Wp bp l) rf) W1 b1 k)) W2 b2 q

/-! ## One layer of each instruction set, read at an entry -/

variable {n K : ℕ}

/-- The host's product with a transposed weight matrix, at entry `(p, q)`. -/
theorem host_mul_apply (D : DotDims ⟨2, ![n, K]⟩ ⟨2, ![K, 16]⟩ ⟨2, ![n, 16]⟩) (hD : IsPlain D)
    (X : FVec Ideal ⟨2, ![n, K]⟩ .f32) (W : FVec Ideal ⟨2, ![16, K]⟩ .f32)
    (hT : (⟨2, ![16, K]⟩ : Shape).Transposes [1, 0] ⟨2, ![K, 16]⟩) (p : Fin n) (q : Fin 16) :
    Host.dotGeneral D none X (transpose ⟨2, ![K, 16]⟩ [1, 0] W hT) (ix2 p q) = rowMul (fun l => X (ix2 p l)) W q := by
  rw [dotGeneral_plain_apply D hD]
  unfold rowMul
  refine Finset.sum_congr rfl fun l _ => ?_
  rw [transpose_ix2_apply]

/-- The host's affine layer: the product, plus the bias laid along every row. -/
theorem host_lin_apply (D : DotDims ⟨2, ![n, K]⟩ ⟨2, ![K, 16]⟩ ⟨2, ![n, 16]⟩) (hD : IsPlain D)
    (X : FVec Ideal ⟨2, ![n, K]⟩ .f32) (W : FVec Ideal ⟨2, ![16, K]⟩ .f32)
    (hT : (⟨2, ![16, K]⟩ : Shape).Transposes [1, 0] ⟨2, ![K, 16]⟩) (b : FVec Ideal ⟨1, ![16]⟩ .f32)
    (h1 : (⟨1, ![16]⟩ : Shape).BroadcastsInDim ⟨2, ![1, 16]⟩ ![1])
    (h2 : (⟨2, ![1, 16]⟩ : Shape).BroadcastsInDim ⟨2, ![n, 16]⟩ ![0, 1]) (p : Fin n) (q : Fin 16) :
    addf (Host.dotGeneral D none X (transpose ⟨2, ![K, 16]⟩ [1, 0] W hT))
        (broadcastInDim ⟨2, ![n, 16]⟩ ![0, 1] h2 (broadcastInDim ⟨2, ![1, 16]⟩ ![1] h1 b)) (ix2 p q)
      = rowLin (fun l => X (ix2 p l)) W b q := by
  rw [addf_apply, host_mul_apply D hD]
  unfold rowLin
  congr 1
  rw [broadcastInDim_apply ![0, 1] h2 _ (ix2 p q) (ix2 (0 : Fin 1) q) (fun a => by
    match a with
    | ⟨0, _⟩ => rfl
    | ⟨1, _⟩ => rfl)]
  exact broadcastInDim_apply ![1] h1 b (ix2 (0 : Fin 1) q) (ix1 q) (fun a => by
    match a with
    | ⟨0, _⟩ => rfl)

/-- The vector unit's product into the zero accumulator with a transposed weight matrix, at entry `(p, q)`; the
    operands may sit in any float format. -/
theorem tc_mul_apply {φ₁ φ₂ : FTy} (D : DotDims ⟨2, ![n, K]⟩ ⟨2, ![K, 16]⟩ ⟨2, ![n, 16]⟩) (hD : IsPlain D)
    (X : FVec Ideal ⟨2, ![n, K]⟩ φ₁) (W : FVec Ideal ⟨2, ![16, K]⟩ φ₂)
    (hT : (⟨2, ![16, K]⟩ : Shape).Transposes [1, 0] ⟨2, ![K, 16]⟩) (p : Fin n) (q : Fin 16) :
    matmul D none X (transpose ⟨2, ![K, 16]⟩ [1, 0] W hT) (constant (F := Ideal) ⟨2, ![n, 16]⟩ .f32 0x00000000#32) (ix2 p q)
      = rowMul (fun l => X (ix2 p l)) W q := by
  rw [matmul_plain_apply D hD]
  unfold rowMul
  refine Finset.sum_congr rfl fun l _ => ?_
  rw [transpose_ix2_apply]

/-- The vector unit's affine layer: the product, plus the bias cast to one row and repeated down the rows. -/
theorem tc_lin_apply {φ₁ φ₂ : FTy} (D : DotDims ⟨2, ![n, K]⟩ ⟨2, ![K, 16]⟩ ⟨2, ![n, 16]⟩) (hD : IsPlain D)
    (X : FVec Ideal ⟨2, ![n, K]⟩ φ₁) (W : FVec Ideal ⟨2, ![16, K]⟩ φ₂)
    (hT : (⟨2, ![16, K]⟩ : Shape).Transposes [1, 0] ⟨2, ![K, 16]⟩) (b : FVec Ideal ⟨1, ![16]⟩ .f32)
    (h1 : (⟨1, ![16]⟩ : Shape).ShapeCasts ⟨2, ![1, 16]⟩)
    (h2 : (⟨2, ![1, 16]⟩ : Shape).Broadcasts ⟨2, ![n, 16]⟩) (p : Fin n) (q : Fin 16) :
    addf (matmul D none X (transpose ⟨2, ![K, 16]⟩ [1, 0] W hT) (constant (F := Ideal) ⟨2, ![n, 16]⟩ .f32 0x00000000#32))
        (broadcastTo ⟨2, ![n, 16]⟩ (shapeCast ⟨2, ![1, 16]⟩ b h1) h2) (ix2 p q)
      = rowLin (fun l => X (ix2 p l)) W b q := by
  rw [addf_apply, tc_mul_apply D hD]
  unfold rowLin
  congr 1
  rw [broadcastTo_1b_ab_apply, shapeCast_a_1a_apply]

/-- The rectifier as either instruction set spells it: the larger of the entry and a zero constant. -/
theorem relu_apply {s : Shape} (X Z : FVec Ideal s .f32) (i : s.Idx) (hZ : Z i = Ideal.ofBits .f32 0x00000000#32) :
    maximumf X Z i = relu (X i) := by
  rw [maximumf_apply, hZ]; rfl

/-- The vector unit's rectifier: the larger of the entry and a splat of the zero word. -/
theorem tc_relu_apply {s : Shape} (X : FVec Ideal s .f32) (i : s.Idx) :
    maximumf X (broadcast s (Scalar.ofBits (F := Ideal) .f32 0x00000000#32)) i = relu (X i) := rfl

/-- The host's rectifier: the larger of the entry and a zero scalar laid over the whole shape. -/
theorem host_relu_apply {s : Shape} (X : FVec Ideal s .f32) (h : (⟨0, ![]⟩ : Shape).BroadcastsInDim s ![]) (i : s.Idx) :
    maximumf X (broadcastInDim s ![] h (constant (F := Ideal) ⟨0, ![]⟩ .f32 0x00000000#32)) i = relu (X i) := by
  rw [maximumf_apply]
  unfold relu
  congr 1

/-- The vector unit's product with both operands first cast to a narrower format: on the extended reals the casts
    change nothing. -/
theorem tc_mul_cast_apply {ψ₁ ψ₂ : FTy} (D : DotDims ⟨2, ![n, K]⟩ ⟨2, ![K, 16]⟩ ⟨2, ![n, 16]⟩) (hD : IsPlain D)
    (X : FVec Ideal ⟨2, ![n, K]⟩ .f32) (W : FVec Ideal ⟨2, ![16, K]⟩ .f32) (hX : ψ₁.bits < FTy.f32.bits) (hW : ψ₂.bits < FTy.f32.bits)
    (hT : (⟨2, ![16, K]⟩ : Shape).Transposes [1, 0] ⟨2, ![K, 16]⟩) (p : Fin n) (q : Fin 16) :
    matmul D none (truncf ψ₁ X hX) (transpose ⟨2, ![K, 16]⟩ [1, 0] (truncf ψ₂ W hW) hT)
        (constant (F := Ideal) ⟨2, ![n, 16]⟩ .f32 0x00000000#32) (ix2 p q)
      = rowMul (fun l => X (ix2 p l)) W q :=
  tc_mul_apply D hD (truncf ψ₁ X hX) (truncf ψ₂ W hW) hT p q

/-- The vector unit's affine layer with both operands first cast to a narrower format. -/
theorem tc_lin_cast_apply {ψ₁ ψ₂ : FTy} (D : DotDims ⟨2, ![n, K]⟩ ⟨2, ![K, 16]⟩ ⟨2, ![n, 16]⟩) (hD : IsPlain D)
    (X : FVec Ideal ⟨2, ![n, K]⟩ .f32) (W : FVec Ideal ⟨2, ![16, K]⟩ .f32) (hX : ψ₁.bits < FTy.f32.bits) (hW : ψ₂.bits < FTy.f32.bits)
    (hT : (⟨2, ![16, K]⟩ : Shape).Transposes [1, 0] ⟨2, ![K, 16]⟩) (b : FVec Ideal ⟨1, ![16]⟩ .f32)
    (h1 : (⟨1, ![16]⟩ : Shape).ShapeCasts ⟨2, ![1, 16]⟩)
    (h2 : (⟨2, ![1, 16]⟩ : Shape).Broadcasts ⟨2, ![n, 16]⟩) (p : Fin n) (q : Fin 16) :
    addf (matmul D none (truncf ψ₁ X hX) (transpose ⟨2, ![K, 16]⟩ [1, 0] (truncf ψ₂ W hW) hT)
          (constant (F := Ideal) ⟨2, ![n, 16]⟩ .f32 0x00000000#32))
        (broadcastTo ⟨2, ![n, 16]⟩ (shapeCast ⟨2, ![1, 16]⟩ b h1) h2) (ix2 p q)
      = rowLin (fun l => X (ix2 p l)) W b q :=
  tc_lin_apply D hD (truncf ψ₁ X hX) (truncf ψ₂ W hW) hT b h1 h2 p q

/-- Two `n × 16` arrays joined along the columns, read at `(p, l)`. -/
theorem cat_apply (A B : (⟨2, ![n, 16]⟩ : Shape).Idx → EReal)
    (h : Shape.Concatenates [(⟨2, ![n, 16]⟩ : Shape), ⟨2, ![n, 16]⟩] ⟨2, ![n, 32]⟩ 1) (p : Fin n) (l : Fin 32) :
    concatenate ⟨2, ![n, 32]⟩ 1 [⟨⟨2, ![n, 16]⟩, A⟩, ⟨⟨2, ![n, 16]⟩, B⟩] h (ix2 p l)
      = rowCat (fun i => A (ix2 p i)) (fun i => B (ix2 p i)) l := by
  unfold rowCat
  by_cases hl : l.val < 16
  · rw [dif_pos hl]
    exact concatenate_pair_apply_left 1 A B h (ix2 p l) rfl (ix2 p ⟨l.val, hl⟩) (fun b => by
      match b with
      | ⟨0, _⟩ => rfl
      | ⟨1, _⟩ => rfl)
  · rw [dif_neg hl]
    exact concatenate_pair_apply_right 1 A B h (ix2 p l) rfl rfl (ix2 p ⟨l.val - 16, by have := l.isLt; omega⟩)
      (fun b hb => by
        match b with
        | ⟨0, _⟩ => rfl
        | ⟨1, _⟩ => exact absurd rfl hb)
      (by show (l.val - 16) + 16 = l.val; omega)

/-! ## Whole arrays, any number of rows -/

/-- Every edge's message: entry `(e, q)` is the message of row `e` of the three inputs. -/
def edgeArr (XL : (⟨2, ![n, 16]⟩ : Shape).Idx → EReal) (XE : (⟨2, ![n, 1]⟩ : Shape).Idx → EReal)
    (XR : (⟨2, ![n, 16]⟩ : Shape).Idx → EReal)
    (Wl : (⟨2, ![16, 16]⟩ : Shape).Idx → EReal) (bl : (⟨1, ![16]⟩ : Shape).Idx → EReal)
    (We : (⟨2, ![16, 1]⟩ : Shape).Idx → EReal) (Wr : (⟨2, ![16, 16]⟩ : Shape).Idx → EReal)
    (Wf : (⟨2, ![16, 16]⟩ : Shape).Idx → EReal) (bf : (⟨1, ![16]⟩ : Shape).Idx → EReal) :
    (⟨2, ![n, 16]⟩ : Shape).Idx → EReal :=
  fun j => edgeRow (fun i => XL (ix2 (j 0) i)) (fun i => XE (ix2 (j 0) i)) (fun i => XR (ix2 (j 0) i)) Wl bl We Wr Wf bf (j 1)

theorem edgeArr_apply (XL : (⟨2, ![n, 16]⟩ : Shape).Idx → EReal) (XE : (⟨2, ![n, 1]⟩ : Shape).Idx → EReal)
    (XR : (⟨2, ![n, 16]⟩ : Shape).Idx → EReal)
    (Wl : (⟨2, ![16, 16]⟩ : Shape).Idx → EReal) (bl : (⟨1, ![16]⟩ : Shape).Idx → EReal)
    (We : (⟨2, ![16, 1]⟩ : Shape).Idx → EReal) (Wr : (⟨2, ![16, 16]⟩ : Shape).Idx → EReal)
    (Wf : (⟨2, ![16, 16]⟩ : Shape).Idx → EReal) (bf : (⟨1, ![16]⟩ : Shape).Idx → EReal) (p : Fin n) (q : Fin 16) :
    edgeArr XL XE XR Wl bl We Wr Wf bf (ix2 p q)
      = edgeRow (fun i => XL (ix2 p i)) (fun i => XE (ix2 p i)) (fun i => XR (ix2 p i)) Wl bl We Wr Wf bf q := rfl

/-- Every right node's output: entry `(r, q)` is the output of row `r` of the two inputs. -/
def postArr (AGG RF : (⟨2, ![n, 16]⟩ : Shape).Idx → EReal)
    (Wp : (⟨2, ![16, 16]⟩ : Shape).Idx → EReal) (bp : (⟨1, ![16]⟩ : Shape).Idx → EReal)
    (W1 : (⟨2, ![16, 32]⟩ : Shape).Idx → EReal) (b1 : (⟨1, ![16]⟩ : Shape).Idx → EReal)
    (W2 : (⟨2, ![16, 16]⟩ : Shape).Idx → EReal) (b2 : (⟨1, ![16]⟩ : Shape).Idx → EReal) :
    (⟨2, ![n, 16]⟩ : Shape).Idx → EReal :=
  fun j => postRow (fun i => AGG (ix2 (j 0) i)) (fun i => RF (ix2 (j 0) i)) Wp bp W1 b1 W2 b2 (j 1)

theorem postArr_apply (AGG RF : (⟨2, ![n, 16]⟩ : Shape).Idx → EReal)
    (Wp : (⟨2, ![16, 16]⟩ : Shape).Idx → EReal) (bp : (⟨1, ![16]⟩ : Shape).Idx → EReal)
    (W1 : (⟨2, ![16, 32]⟩ : Shape).Idx → EReal) (b1 : (⟨1, ![16]⟩ : Shape).Idx → EReal)
    (W2 : (⟨2, ![16, 16]⟩ : Shape).Idx → EReal) (b2 : (⟨1, ![16]⟩ : Shape).Idx → EReal) (p : Fin n) (q : Fin 16) :
    postArr AGG RF Wp bp W1 b1 W2 b2 (ix2 p q)
      = postRow (fun i => AGG (ix2 p i)) (fun i => RF (ix2 p i)) Wp bp W1 b1 W2 b2 q := rfl

/-- Rows appended below the three inputs and then cut off again change no message: a message is a function of its
    own row alone.  (What the appended rows hold does not matter.) -/
theorem edgeArr_pad_slice {N : ℕ} (hnN : n ≤ N)
    (XL : (⟨2, ![n, 16]⟩ : Shape).Idx → EReal) (XE : (⟨2, ![n, 1]⟩ : Shape).Idx → EReal)
    (XR : (⟨2, ![n, 16]⟩ : Shape).Idx → EReal)
    {u0 u1 u2 : Shape} (z0 : u0.Idx → EReal) (z1 : u1.Idx → EReal) (z2 : u2.Idx → EReal) (hi0 hi1 hi2 : Fin 2 → ℕ)
    (hp0 : (⟨2, ![n, 16]⟩ : Shape).Pads ![0, 0] hi0 ![0, 0] ⟨2, ![N, 16]⟩) (hu0 : 0 < u0.numel)
    (hp1 : (⟨2, ![n, 1]⟩ : Shape).Pads ![0, 0] hi1 ![0, 0] ⟨2, ![N, 1]⟩) (hu1 : 0 < u1.numel)
    (hp2 : (⟨2, ![n, 16]⟩ : Shape).Pads ![0, 0] hi2 ![0, 0] ⟨2, ![N, 16]⟩) (hu2 : 0 < u2.numel)
    (hs : (⟨2, ![N, 16]⟩ : Shape).Slices ![0, 0] ⟨2, ![n, 16]⟩)
    (Wl : (⟨2, ![16, 16]⟩ : Shape).Idx → EReal) (bl : (⟨1, ![16]⟩ : Shape).Idx → EReal)
    (We : (⟨2, ![16, 1]⟩ : Shape).Idx → EReal) (Wr : (⟨2, ![16, 16]⟩ : Shape).Idx → EReal)
    (Wf : (⟨2, ![16, 16]⟩ : Shape).Idx → EReal) (bf : (⟨1, ![16]⟩ : Shape).Idx → EReal) :
    extractStridedSlice ⟨2, ![n, 16]⟩ ![0, 0]
        (edgeArr (pad ⟨2, ![N, 16]⟩ ![0, 0] hi0 ![0, 0] XL z0 hp0 hu0) (pad ⟨2, ![N, 1]⟩ ![0, 0] hi1 ![0, 0] XE z1 hp1 hu1)
          (pad ⟨2, ![N, 16]⟩ ![0, 0] hi2 ![0, 0] XR z2 hp2 hu2) Wl bl We Wr Wf bf) hs
      = edgeArr XL XE XR Wl bl We Wr Wf bf := by
  funext j
  obtain ⟨p, q, rfl⟩ : ∃ (p : Fin n) (q : Fin 16), j = ix2 p q := ⟨j 0, j 1, eq_ix2 j⟩
  have hpN : p.val < N := lt_of_lt_of_le p.isLt hnN
  rw [slice2_axis0_apply 0 _ hs p q ⟨p.val, hpN⟩ (Nat.zero_add _).symm, edgeArr_apply, edgeArr_apply]
  have e0 : (fun l => pad ⟨2, ![N, 16]⟩ ![0, 0] hi0 ![0, 0] XL z0 hp0 hu0 (ix2 (⟨p.val, hpN⟩ : Fin N) l)) = fun l => XL (ix2 p l) :=
    funext fun l => pad_apply_of_inside _ _ _ XL z0 hp0 hu0 _ (ix2 p l) (fun a => by
      match a with
      | ⟨0, _⟩ => show p.val = 0 + p.val * (0 + 1); omega
      | ⟨1, _⟩ => show l.val = 0 + l.val * (0 + 1); omega)
  have e1 : (fun l => pad ⟨2, ![N, 1]⟩ ![0, 0] hi1 ![0, 0] XE z1 hp1 hu1 (ix2 (⟨p.val, hpN⟩ : Fin N) l)) = fun l => XE (ix2 p l) :=
    funext fun l => pad_apply_of_inside _ _ _ XE z1 hp1 hu1 _ (ix2 p l) (fun a => by
      match a with
      | ⟨0, _⟩ => show p.val = 0 + p.val * (0 + 1); omega
      | ⟨1, _⟩ => show l.val = 0 + l.val * (0 + 1); omega)
  have e2 : (fun l => pad ⟨2, ![N, 16]⟩ ![0, 0] hi2 ![0, 0] XR z2 hp2 hu2 (ix2 (⟨p.val, hpN⟩ : Fin N) l)) = fun l => XR (ix2 p l) :=
    funext fun l => pad_apply_of_inside _ _ _ XR z2 hp2 hu2 _ (ix2 p l) (fun a => by
      match a with
      | ⟨0, _⟩ => show p.val = 0 + p.val * (0 + 1); omega
      | ⟨1, _⟩ => show l.val = 0 + l.val * (0 + 1); omega)
  rw [e0, e1, e2]

end Cert.EdgeAgg

end
-- ==== Proof.KernelBodies.lean ====
/-
  What each of the two kernel bodies stores, entry by entry: the first body's one store holds, at row `p` and column
  `q`, the edge message of row `p` of its three row blocks; the second body's one store holds the node output of row
  `p` of its two row blocks.  Each body is a chain of affine layers and rectifiers on whole blocks, so an entry of the
  stored value unfolds layer by layer into the per-row formulas.
-/
import proofs.«122030_j60610578481387_1_alg».proof.Proof.Gen.KernelIdeal.Skeleton
import proofs.«122030_j60610578481387_1_alg».proof.Proof.Spec

noncomputable section

namespace Cert.EdgeAgg

open Cert.KernelIdeal Cert.KernelIdeal.Gen
open Idealize.ShloMosaic Idealize.ShloMosaic.ValueIdx Cert.Gcn

/-- Each of the bodies' four kinds of product contracts the left operand's columns with the right operand's rows. -/
theorem plain_4096_16 : IsPlain dot_S4096x16_S16x16_S4096x16_1_0_0_1_n_n := ⟨rfl, rfl, rfl, rfl, rfl, rfl⟩
theorem plain_4096_1 : IsPlain dot_S4096x1_S1x16_S4096x16_1_0_0_1_n_n := ⟨rfl, rfl, rfl, rfl, rfl, rfl⟩
theorem plain_4000_16 : IsPlain dot_S4000x16_S16x16_S4000x16_1_0_0_1_n_n := ⟨rfl, rfl, rfl, rfl, rfl, rfl⟩
theorem plain_4000_32 : IsPlain dot_S4000x32_S32x16_S4000x16_1_0_0_1_n_n := ⟨rfl, rfl, rfl, rfl, rfl, rfl⟩

/-- The edge body's stored value at `(p, q)` is the message of row `p`. -/
theorem edge_payload (v0 : Vec Ideal S4096x16 .f32) (v3 : Vec Ideal S4096x1 .f32) (v6 : Vec Ideal S4096x16 .f32)
    (v9 : Vec Ideal S16x16 .f32) (v11 : Vec Ideal S16x1 .f32) (v13 : Vec Ideal S16x16 .f32) (v15 : Vec Ideal S16x16 .f32)
    (v19 : Vec Ideal S16 .f32) (v34 : Vec Ideal S16 .f32) (p : Fin 4096) (q : Fin 16) :
    k0_pay1 (F := Ideal) v0 v3 v6 v9 v11 v13 v15 v19 v34 (ix2 p q)
      = edgeRow (fun i => v0 (ix2 p i)) (fun i => v3 (ix2 p i)) (fun i => v6 (ix2 p i)) v9 v19 v11 v13 v15 v34 q := by
  unfold k0_pay1 edgeRow
  simp only [tc_lin_cast_apply _ plain_4096_16, tc_mul_cast_apply _ plain_4096_16, tc_mul_cast_apply _ plain_4096_1,
    addf_apply, tc_relu_apply, shapeCast_self]

/-- The node body's stored value at `(p, q)` is the output of row `p`. -/
theorem post_payload (v0 : Vec Ideal S4000x16 .f32) (v2 : Vec Ideal S4000x16 .f32) (v6 : Vec Ideal S16x16 .f32)
    (v10 : Vec Ideal S16 .f32) (v16 : Vec Ideal S16x32 .f32) (v20 : Vec Ideal S16 .f32) (v27 : Vec Ideal S16x16 .f32)
    (v31 : Vec Ideal S16 .f32) (p : Fin 4000) (q : Fin 16) :
    k1_pay1 (F := Ideal) v0 v2 v6 v10 v16 v20 v27 v31 (ix2 p q)
      = postRow (fun i => v0 (ix2 p i)) (fun i => v2 (ix2 p i)) v6 v10 v16 v20 v27 v31 q := by
  unfold k1_pay1 postRow
  simp only [tc_lin_cast_apply _ plain_4000_16, tc_lin_cast_apply _ plain_4000_32, truncf_apply, cat_apply,
    tc_relu_apply, shapeCast_self]

end Cert.EdgeAgg

end
-- ==== Proof.Blocks0.lean ====
/-
  The first region's output array as one function of the arrays it finds.  The region walks 977 points; point `t`
  fetches rows `4096·t … 4096·t + 4095` of the three row inputs and the whole of each weight array, and writes back
  the same rows of the output.  Row `p` of the block written at point `t` is the message of row `p` of the fetched
  blocks, that is of row `4096·t + p` of the arrays; the 977 blocks tile the `4001792 = 977 · 4096` rows.  So the
  array ends at the message of every row of its inputs.
-/
import proofs.«122030_j60610578481387_1_alg».proof.Proof.Gen.KernelIdeal.Frame
import proofs.«122030_j60610578481387_1_alg».proof.Proof.KernelBodies
import Idealize.ShloMosaic.Lib.Pipeline.Value

set_option maxRecDepth 16384

noncomputable section

namespace Cert.EdgeAgg

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The printed index maps over the grid: the three row inputs and the output sit at block `(t, 0)`, every weight
    array at block zero. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 1) = 0 :=
  (by decide +kernel : ∀ t : Fin grid0.N, _)

/-- The body's stored value at an entry of a block, against the message array at the entry of the whole arrays that
    the block's entry is: stated over plain blocks and arrays, the blocks' rows being rows `o + ·` of the arrays. -/
theorem edge_block_entry (x0 : Vec Ideal S4096x16 .f32) (x1 : Vec Ideal S4096x1 .f32) (x2 : Vec Ideal S4096x16 .f32)
    (x3 : Vec Ideal S16x16 .f32) (x4 : Vec Ideal S16 .f32) (x5 : Vec Ideal S16x1 .f32) (x6 : Vec Ideal S16x16 .f32)
    (x7 : Vec Ideal S16x16 .f32) (x8 : Vec Ideal S16 .f32)
    (A0 : S4001792x16.Idx → EReal) (A1 : S4001792x1.Idx → EReal) (A2 : S4001792x16.Idx → EReal)
    (o : ℕ) (y : S4096x16.Idx) (i : S4001792x16.Idx)
    (hi0 : (i 0).val = o + (y 0).val) (hi1 : (i 1).val = (y 1).val)
    (h0 : ∀ (y' : S4096x16.Idx) (i' : S4001792x16.Idx), (i' 0).val = o + (y' 0).val → (i' 1).val = (y' 1).val → x0 y' = A0 i')
    (h1 : ∀ (y' : S4096x1.Idx) (i' : S4001792x1.Idx), (i' 0).val = o + (y' 0).val → (i' 1).val = (y' 1).val → x1 y' = A1 i')
    (h2 : ∀ (y' : S4096x16.Idx) (i' : S4001792x16.Idx), (i' 0).val = o + (y' 0).val → (i' 1).val = (y' 1).val → x2 y' = A2 i') :
    k0_pay1 (F := Ideal) x0 x1 x2 x3 x5 x6 x7 x4 x8 y = edgeArr A0 A1 A2 x3 x4 x5 x6 x7 x8 i := by
  obtain ⟨p, q, rfl⟩ : ∃ (p : Fin 4096) (q : Fin 16), y = ix2 p q := ⟨y 0, y 1, eq_ix2 y⟩
  obtain ⟨r, q', rfl⟩ : ∃ (r : Fin 4001792) (q' : Fin 16), i = ix2 r q' := ⟨i 0, i 1, eq_ix2 i⟩
  have hr : r.val = o + p.val := hi0
  obtain rfl : q' = q := Fin.ext hi1
  rw [edge_payload, edgeArr_apply]
  have e0 : (fun l => x0 (ix2 p l)) = fun l => A0 (ix2 r l) := funext fun l => h0 _ _ hr rfl
  have e1 : (fun l => x1 (ix2 p l)) = fun l => A1 (ix2 r l) := funext fun l => h1 _ _ hr rfl
  have e2 : (fun l => x2 (ix2 p l)) = fun l => A2 (ix2 r l) := funext fun l => h2 _ _ hr rfl
  rw [e0, e1, e2]

/-- A row input's block at point `t`, entry by entry: rows `4096·t + ·` of its array. -/
theorem rows0_0 (c : Dev nD) (t : Fin cfg0.N) (y : S4096x16.Idx) (i : S4001792x16.Idx)
    (h0 : (i 0).val = t.val * 4096 + (y 0).val) (h1 : (i 1).val = (y 1).val) :
    (iblk0 V c 0 t : Vec Ideal S4096x16 .f32) y = (V c main_v18 : S4001792x16.Idx → EReal) i := by
  obtain ⟨e0, e1, -⟩ := index0 t
  unfold iblk0
  rw [View.read_apply]
  show V c main_v18 _ = V c main_v18 _
  congr 1
  funext a
  apply Fin.ext
  match a with
  | ⟨0, _⟩ => show win0_0.index t (0 : Fin 2) * 4096 + 1 * (y 0).val = (i 0).val; rw [e0, h0]; omega
  | ⟨1, _⟩ => show win0_0.index t (1 : Fin 2) * 16 + 1 * (y 1).val = (i 1).val; rw [e1, h1]; omega

theorem rows0_1 (c : Dev nD) (t : Fin cfg0.N) (y : S4096x1.Idx) (i : S4001792x1.Idx)
    (h0 : (i 0).val = t.val * 4096 + (y 0).val) (h1 : (i 1).val = (y 1).val) :
    (iblk0 V c 1 t : Vec Ideal S4096x1 .f32) y = (V c main_v20 : S4001792x1.Idx → EReal) i := by
  obtain ⟨-, -, e0, e1, -⟩ := index0 t
  unfold iblk0
  rw [View.read_apply]
  show V c main_v20 _ = V c main_v20 _
  congr 1
  funext a
  apply Fin.ext
  match a with
  | ⟨0, _⟩ => show win0_1.index t (0 : Fin 2) * 4096 + 1 * (y 0).val = (i 0).val; rw [e0, h0]; omega
  | ⟨1, _⟩ => show win0_1.index t (1 : Fin 2) * 1 + 1 * (y 1).val = (i 1).val; rw [e1, h1]; omega

theorem rows0_2 (c : Dev nD) (t : Fin cfg0.N) (y : S4096x16.Idx) (i : S4001792x16.Idx)
    (h0 : (i 0).val = t.val * 4096 + (y 0).val) (h1 : (i 1).val = (y 1).val) :
    (iblk0 V c 2 t : Vec Ideal S4096x16 .f32) y = (V c main_v19 : S4001792x16.Idx → EReal) i := by
  obtain ⟨-, -, -, -, e0, e1, -⟩ := index0 t
  unfold iblk0
  rw [View.read_apply]
  show V c main_v19 _ = V c main_v19 _
  congr 1
  funext a
  apply Fin.ext
  match a with
  | ⟨0, _⟩ => show win0_2.index t (0 : Fin 2) * 4096 + 1 * (y 0).val = (i 0).val; rw [e0, h0]; omega
  | ⟨1, _⟩ => show win0_2.index t (1 : Fin 2) * 16 + 1 * (y 1).val = (i 1).val; rw [e1, h1]; omega

/-- Each weight array's block is the array. -/
theorem whole0_3 (c : Dev nD) (t : Fin cfg0.N) : (iblk0 V c 3 t : Vec Ideal S16x16 .f32) = V c main_arg4 := by
  obtain ⟨-, -, -, -, -, -, -, -, e0, e1, -⟩ := index0 t
  funext y
  unfold iblk0
  rw [View.read_apply]
  show V c main_arg4 _ = V c main_arg4 _
  congr 1
  funext a
  apply Fin.ext
  match a with
  | ⟨0, _⟩ => show win0_3.index t (0 : Fin 2) * 16 + 1 * (y 0).val = (y 0).val; rw [e0]; omega
  | ⟨1, _⟩ => show win0_3.index t (1 : Fin 2) * 16 + 1 * (y 1).val = (y 1).val; rw [e1]; omega

theorem whole0_4 (c : Dev nD) (t : Fin cfg0.N) : (iblk0 V c 4 t : Vec Ideal S16 .f32) = V c main_arg5 := by
  obtain ⟨-, -, -, -, -, -, -, -, -, -, e0, -⟩ := index0 t
  funext y
  unfold iblk0
  rw [View.read_apply]
  show V c main_arg5 _ = V c main_arg5 _
  congr 1
  funext a
  apply Fin.ext
  match a with
  | ⟨0, _⟩ => show win0_4.index t (0 : Fin 1) * 16 + 1 * (y 0).val = (y 0).val; rw [e0]; omega

theorem whole0_5 (c : Dev nD) (t : Fin cfg0.N) : (iblk0 V c 5 t : Vec Ideal S16x1 .f32) = V c main_arg6 := by
  obtain ⟨-, -, -, -, -, -, -, -, -, -, -, e0, e1, -⟩ := index0 t
  funext y
  unfold iblk0
  rw [View.read_apply]
  show V c main_arg6 _ = V c main_arg6 _
  congr 1
  funext a
  apply Fin.ext
  match a with
  | ⟨0, _⟩ => show win0_5.index t (0 : Fin 2) * 16 + 1 * (y 0).val = (y 0).val; rw [e0]; omega
  | ⟨1, _⟩ => show win0_5.index t (1 : Fin 2) * 1 + 1 * (y 1).val = (y 1).val; rw [e1]; omega

theorem whole0_6 (c : Dev nD) (t : Fin cfg0.N) : (iblk0 V c 6 t : Vec Ideal S16x16 .f32) = V c main_arg7 := by
  obtain ⟨-, -, -, -, -, -, -, -, -, -, -, -, -, e0, e1, -⟩ := index0 t
  funext y
  unfold iblk0
  rw [View.read_apply]
  show V c main_arg7 _ = V c main_arg7 _
  congr 1
  funext a
  apply Fin.ext
  match a with
  | ⟨0, _⟩ => show win0_6.index t (0 : Fin 2) * 16 + 1 * (y 0).val = (y 0).val; rw [e0]; omega
  | ⟨1, _⟩ => show win0_6.index t (1 : Fin 2) * 16 + 1 * (y 1).val = (y 1).val; rw [e1]; omega

theorem whole0_7 (c : Dev nD) (t : Fin cfg0.N) : (iblk0 V c 7 t : Vec Ideal S16x16 .f32) = V c main_arg8 := by
  obtain ⟨-, -, -, -, -, -, -, -, -, -, -, -, -, -, -, e0, e1, -⟩ := index0 t
  funext y
  unfold iblk0
  rw [View.read_apply]
  show V c main_arg8 _ = V c main_arg8 _
  congr 1
  funext a
  apply Fin.ext
  match a with
  | ⟨0, _⟩ => show win0_7.index t (0 : Fin 2) * 16 + 1 * (y 0).val = (y 0).val; rw [e0]; omega
  | ⟨1, _⟩ => show win0_7.index t (1 : Fin 2) * 16 + 1 * (y 1).val = (y 1).val; rw [e1]; omega

theorem whole0_8 (c : Dev nD) (t : Fin cfg0.N) : (iblk0 V c 8 t : Vec Ideal S16 .f32) = V c main_arg9 := by
  obtain ⟨-, -, -, -, -, -, -, -, -, -, -, -, -, -, -, -, -, e0⟩ := index0 t
  funext y
  unfold iblk0
  rw [View.read_apply]
  show V c main_arg9 _ = V c main_arg9 _
  congr 1
  funext a
  apply Fin.ext
  match a with
  | ⟨0, _⟩ => show win0_8.index t (0 : Fin 1) * 16 + 1 * (y 0).val = (y 0).val; rw [e0]; omega

/-- The message array of what the region finds. -/
abbrev msgOf (c : Dev nD) : S4001792x16.Idx → EReal :=
  edgeArr (V c main_v18) (V c main_v20) (V c main_v19) (V c main_arg4) (V c main_arg5) (V c main_arg6)
    (V c main_arg7) (V c main_arg8) (V c main_arg9)

/-- What point `t` writes back is block `t` of the message array. -/
theorem flushed0 (c : Dev nD) (t : Fin cfg0.N) :
    (dat0 V c).flushed 9 t = ((cfg0.win 9).blk t).view.read (Elt Ideal) (msgOf V c) := by
  show (cfg0.win 9).cut (grid0.coords t) ((dat0 V c).after 9 t) = _
  rw [after0_9, whole0_3, whole0_4, whole0_5, whole0_6, whole0_7, whole0_8]
  unfold out0_9
  rw [View.canon_unit_zero zeros2]
  simp only [View.ld_unit_zero (S := S4096x16) zeros2, View.ld_unit_zero (S := S4096x1) zeros2,
    View.ld_unit_zero (S := S16x16) zeros2, View.ld_unit_zero (S := S16x1) zeros2, View.ld_unit_zero (S := S16) zeros1]
  obtain ⟨-, -, -, -, -, -, e0, e1, -⟩ := index0 t
  funext j
  rw [View.read_apply]
  refine edge_block_entry _ _ _ _ _ _ _ _ _ _ _ _ (t.val * 4096) j _ ?_ ?_
    (fun y' i' => rows0_0 V c t y' i') (fun y' i' => rows0_1 V c t y' i') (fun y' i' => rows0_2 V c t y' i')
  · show win0_9.index t (0 : Fin 2) * 4096 + 1 * (j 0).val = t.val * 4096 + (j 0).val; rw [e0]; omega
  · show win0_9.index t (1 : Fin 2) * 16 + 1 * (j 1).val = (j 1).val; rw [e1]; omega

/-- An index whose row lies in rows `4096·t … 4096·t + 4095` is in point `t`'s block. -/
theorem mem_block0 (t : Fin cfg0.N) (i : S4001792x16.Idx)
    (h : t.val * 4096 ≤ (i 0).val ∧ (i 0).val < t.val * 4096 + 4096) : i ∈ ((cfg0.win 9).blk t).view.set := by
  have hi1 : (i 1).val < 16 := (i 1).isLt
  obtain ⟨-, -, -, -, -, -, e0, e1, -⟩ := index0 t
  show i ∈ ((View.whole main_v21).slice (win0_9.rect t)).set
  rw [View.set_slice_whole, Rect.mem_set_unit]
  intro a
  match a with
  | ⟨0, _⟩ =>
    show win0_9.index t (0 : Fin 2) * 4096 ≤ (i 0).val ∧ (i 0).val < win0_9.index t (0 : Fin 2) * 4096 + 4096
    rw [e0]; exact h
  | ⟨1, _⟩ =>
    show win0_9.index t (1 : Fin 2) * 16 ≤ (i 1).val ∧ (i 1).val < win0_9.index t (1 : Fin 2) * 16 + 16
    rw [e1]; omega

/-- Every row of the output lies in some point's block: row `r` in block `r / 4096`. -/
theorem cover0 (i : S4001792x16.Idx) :
    ∃ t : Fin cfg0.N, (cfg0.win 9).flush t = true ∧ i ∈ ((cfg0.win 9).blk t).view.set := by
  have hi0 : (i 0).val < 4001792 := (i 0).isLt
  have hN : cfg0.N = 977 := N_0
  have hlt : (i 0).val / 4096 < cfg0.N := by rw [hN]; omega
  refine ⟨⟨(i 0).val / 4096, hlt⟩, flush0_9 _, mem_block0 _ i ?_⟩
  show (i 0).val / 4096 * 4096 ≤ (i 0).val ∧ (i 0).val < (i 0).val / 4096 * 4096 + 4096
  omega

/-- THE FIRST REGION'S OUTPUT ARRAY after its run: the message of every row of the arrays it found. -/
theorem region0_array (c : Dev nD) : (dat0 V c).arrAt 9 cfg0.N = msgOf V c :=
  (dat0 V c).arrAt_eq_of_cover 9 (msgOf V c) (fun t _ => flushed0 V c t) (cover0)

end Cert.EdgeAgg

end
-- ==== Proof.Blocks1.lean ====
/-
  The second region's output array as one function of the arrays it finds.  The region walks 50 points; point `t`
  fetches rows `4000·t … 4000·t + 3999` of the aggregate and of the right nodes' features and the whole of each
  weight array, and writes back the same rows of the output.  Row `p` of the block written at point `t` is the node
  output of row `4000·t + p` of the arrays; the 50 blocks tile the `200000 = 50 · 4000` rows.
-/
import proofs.«122030_j60610578481387_1_alg».proof.Proof.Gen.KernelIdeal.Frame
import proofs.«122030_j60610578481387_1_alg».proof.Proof.KernelBodies
import Idealize.ShloMosaic.Lib.Pipeline.Value

set_option maxRecDepth 16384

noncomputable section

namespace Cert.EdgeAgg.Post

open Cert.EdgeAgg Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The printed index maps over the grid: the two row inputs and the output sit at block `(t, 0)`, every weight
    array at block zero. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_8.index t (0 : Fin 2) = t.val ∧ win1_8.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0 :=
  (by decide +kernel : ∀ t : Fin grid1.N, _)

/-- The body's stored value at an entry of a block, against the output array at the entry of the whole arrays that
    the block's entry is: stated over plain blocks and arrays, the blocks' rows being rows `o + ·` of the arrays. -/
theorem post_block_entry (x0 : Vec Ideal S4000x16 .f32) (x1 : Vec Ideal S4000x16 .f32)
    (x2 : Vec Ideal S16x16 .f32) (x3 : Vec Ideal S16 .f32) (x4 : Vec Ideal S16x32 .f32) (x5 : Vec Ideal S16 .f32)
    (x6 : Vec Ideal S16x16 .f32) (x7 : Vec Ideal S16 .f32)
    (A0 : S200000x16.Idx → EReal) (A1 : S200000x16.Idx → EReal)
    (o : ℕ) (y : S4000x16.Idx) (i : S200000x16.Idx)
    (hi0 : (i 0).val = o + (y 0).val) (hi1 : (i 1).val = (y 1).val)
    (h0 : ∀ (y' : S4000x16.Idx) (i' : S200000x16.Idx), (i' 0).val = o + (y' 0).val → (i' 1).val = (y' 1).val → x0 y' = A0 i')
    (h1 : ∀ (y' : S4000x16.Idx) (i' : S200000x16.Idx), (i' 0).val = o + (y' 0).val → (i' 1).val = (y' 1).val → x1 y' = A1 i') :
    k1_pay1 (F := Ideal) x0 x1 x2 x3 x4 x5 x6 x7 y = postArr A0 A1 x2 x3 x4 x5 x6 x7 i := by
  obtain ⟨p, q, rfl⟩ : ∃ (p : Fin 4000) (q : Fin 16), y = ix2 p q := ⟨y 0, y 1, eq_ix2 y⟩
  obtain ⟨r, q', rfl⟩ : ∃ (r : Fin 200000) (q' : Fin 16), i = ix2 r q' := ⟨i 0, i 1, eq_ix2 i⟩
  have hr : r.val = o + p.val := hi0
  obtain rfl : q' = q := Fin.ext hi1
  rw [post_payload, postArr_apply]
  have e0 : (fun l => x0 (ix2 p l)) = fun l => A0 (ix2 r l) := funext fun l => h0 _ _ hr rfl
  have e1 : (fun l => x1 (ix2 p l)) = fun l => A1 (ix2 r l) := funext fun l => h1 _ _ hr rfl
  rw [e0, e1]

/-- A row input's block at point `t`, entry by entry: rows `4000·t + ·` of its array. -/
theorem rows1_0 (c : Dev nD) (t : Fin cfg1.N) (y : S4000x16.Idx) (i : S200000x16.Idx)
    (h0 : (i 0).val = t.val * 4000 + (y 0).val) (h1 : (i 1).val = (y 1).val) :
    (iblk1 V c 0 t : Vec Ideal S4000x16 .f32) y = (V c main_v25 : S200000x16.Idx → EReal) i := by
  obtain ⟨e0, e1, -⟩ := index1 t
  unfold iblk1
  rw [View.read_apply]
  show V c main_v25 _ = V c main_v25 _
  congr 1
  funext a
  apply Fin.ext
  match a with
  | ⟨0, _⟩ => show win1_0.index t (0 : Fin 2) * 4000 + 1 * (y 0).val = (i 0).val; rw [e0, h0]; omega
  | ⟨1, _⟩ => show win1_0.index t (1 : Fin 2) * 16 + 1 * (y 1).val = (i 1).val; rw [e1, h1]; omega

theorem rows1_1 (c : Dev nD) (t : Fin cfg1.N) (y : S4000x16.Idx) (i : S200000x16.Idx)
    (h0 : (i 0).val = t.val * 4000 + (y 0).val) (h1 : (i 1).val = (y 1).val) :
    (iblk1 V c 1 t : Vec Ideal S4000x16 .f32) y = (V c main_arg2 : S200000x16.Idx → EReal) i := by
  obtain ⟨-, -, e0, e1, -⟩ := index1 t
  unfold iblk1
  rw [View.read_apply]
  show V c main_arg2 _ = V c main_arg2 _
  congr 1
  funext a
  apply Fin.ext
  match a with
  | ⟨0, _⟩ => show win1_1.index t (0 : Fin 2) * 4000 + 1 * (y 0).val = (i 0).val; rw [e0, h0]; omega
  | ⟨1, _⟩ => show win1_1.index t (1 : Fin 2) * 16 + 1 * (y 1).val = (i 1).val; rw [e1, h1]; omega

/-- Each weight array's block is the array. -/
theorem whole1_2 (c : Dev nD) (t : Fin cfg1.N) : (iblk1 V c 2 t : Vec Ideal S16x16 .f32) = V c main_arg10 := by
  obtain ⟨-, -, -, -, -, -, e0, e1, -⟩ := index1 t
  funext y
  unfold iblk1
  rw [View.read_apply]
  show V c main_arg10 _ = V c main_arg10 _
  congr 1
  funext a
  apply Fin.ext
  match a with
  | ⟨0, _⟩ => show win1_2.index t (0 : Fin 2) * 16 + 1 * (y 0).val = (y 0).val; rw [e0]; omega
  | ⟨1, _⟩ => show win1_2.index t (1 : Fin 2) * 16 + 1 * (y 1).val = (y 1).val; rw [e1]; omega

theorem whole1_3 (c : Dev nD) (t : Fin cfg1.N) : (iblk1 V c 3 t : Vec Ideal S16 .f32) = V c main_arg11 := by
  obtain ⟨-, -, -, -, -, -, -, -, e0, -⟩ := index1 t
  funext y
  unfold iblk1
  rw [View.read_apply]
  show V c main_arg11 _ = V c main_arg11 _
  congr 1
  funext a
  apply Fin.ext
  match a with
  | ⟨0, _⟩ => show win1_3.index t (0 : Fin 1) * 16 + 1 * (y 0).val = (y 0).val; rw [e0]; omega

theorem whole1_4 (c : Dev nD) (t : Fin cfg1.N) : (iblk1 V c 4 t : Vec Ideal S16x32 .f32) = V c main_arg12 := by
  obtain ⟨-, -, -, -, -, -, -, -, -, e0, e1, -⟩ := index1 t
  funext y
  unfold iblk1
  rw [View.read_apply]
  show V c main_arg12 _ = V c main_arg12 _
  congr 1
  funext a
  apply Fin.ext
  match a with
  | ⟨0, _⟩ => show win1_4.index t (0 : Fin 2) * 16 + 1 * (y 0).val = (y 0).val; rw [e0]; omega
  | ⟨1, _⟩ => show win1_4.index t (1 : Fin 2) * 32 + 1 * (y 1).val = (y 1).val; rw [e1]; omega

theorem whole1_5 (c : Dev nD) (t : Fin cfg1.N) : (iblk1 V c 5 t : Vec Ideal S16 .f32) = V c main_arg13 := by
  obtain ⟨-, -, -, -, -, -, -, -, -, -, -, e0, -⟩ := index1 t
  funext y
  unfold iblk1
  rw [View.read_apply]
  show V c main_arg13 _ = V c main_arg13 _
  congr 1
  funext a
  apply Fin.ext
  match a with
  | ⟨0, _⟩ => show win1_5.index t (0 : Fin 1) * 16 + 1 * (y 0).val = (y 0).val; rw [e0]; omega

theorem whole1_6 (c : Dev nD) (t : Fin cfg1.N) : (iblk1 V c 6 t : Vec Ideal S16x16 .f32) = V c main_arg14 := by
  obtain ⟨-, -, -, -, -, -, -, -, -, -, -, -, e0, e1, -⟩ := index1 t
  funext y
  unfold iblk1
  rw [View.read_apply]
  show V c main_arg14 _ = V c main_arg14 _
  congr 1
  funext a
  apply Fin.ext
  match a with
  | ⟨0, _⟩ => show win1_6.index t (0 : Fin 2) * 16 + 1 * (y 0).val = (y 0).val; rw [e0]; omega
  | ⟨1, _⟩ => show win1_6.index t (1 : Fin 2) * 16 + 1 * (y 1).val = (y 1).val; rw [e1]; omega

theorem whole1_7 (c : Dev nD) (t : Fin cfg1.N) : (iblk1 V c 7 t : Vec Ideal S16 .f32) = V c main_arg15 := by
  obtain ⟨-, -, -, -, -, -, -, -, -, -, -, -, -, -, e0⟩ := index1 t
  funext y
  unfold iblk1
  rw [View.read_apply]
  show V c main_arg15 _ = V c main_arg15 _
  congr 1
  funext a
  apply Fin.ext
  match a with
  | ⟨0, _⟩ => show win1_7.index t (0 : Fin 1) * 16 + 1 * (y 0).val = (y 0).val; rw [e0]; omega

/-- The output array of what the region finds. -/
abbrev outOf (c : Dev nD) : S200000x16.Idx → EReal :=
  postArr (V c main_v25) (V c main_arg2) (V c main_arg10) (V c main_arg11) (V c main_arg12) (V c main_arg13)
    (V c main_arg14) (V c main_arg15)

/-- What point `t` writes back is block `t` of the output array. -/
theorem flushed1 (c : Dev nD) (t : Fin cfg1.N) :
    (dat1 V c).flushed 8 t = ((cfg1.win 8).blk t).view.read (Elt Ideal) (outOf V c) := by
  show (cfg1.win 8).cut (grid1.coords t) ((dat1 V c).after 8 t) = _
  rw [after1_8, whole1_2, whole1_3, whole1_4, whole1_5, whole1_6, whole1_7]
  unfold out1_8
  rw [View.canon_unit_zero zeros2]
  simp only [View.ld_unit_zero (S := S4000x16) zeros2, View.ld_unit_zero (S := S16x16) zeros2,
    View.ld_unit_zero (S := S16x32) zeros2, View.ld_unit_zero (S := S16) zeros1]
  obtain ⟨-, -, -, -, e0, e1, -⟩ := index1 t
  funext j
  rw [View.read_apply]
  refine post_block_entry _ _ _ _ _ _ _ _ _ _ (t.val * 4000) j _ ?_ ?_
    (fun y' i' => rows1_0 V c t y' i') (fun y' i' => rows1_1 V c t y' i')
  · show win1_8.index t (0 : Fin 2) * 4000 + 1 * (j 0).val = t.val * 4000 + (j 0).val; rw [e0]; omega
  · show win1_8.index t (1 : Fin 2) * 16 + 1 * (j 1).val = (j 1).val; rw [e1]; omega

/-- An index whose row lies in rows `4000·t … 4000·t + 3999` is in point `t`'s block. -/
theorem mem_block1 (t : Fin cfg1.N) (i : S200000x16.Idx)
    (h : t.val * 4000 ≤ (i 0).val ∧ (i 0).val < t.val * 4000 + 4000) : i ∈ ((cfg1.win 8).blk t).view.set := by
  have hi1 : (i 1).val < 16 := (i 1).isLt
  obtain ⟨-, -, -, -, e0, e1, -⟩ := index1 t
  show i ∈ ((View.whole main_v26).slice (win1_8.rect t)).set
  rw [View.set_slice_whole, Rect.mem_set_unit]
  intro a
  match a with
  | ⟨0, _⟩ =>
    show win1_8.index t (0 : Fin 2) * 4000 ≤ (i 0).val ∧ (i 0).val < win1_8.index t (0 : Fin 2) * 4000 + 4000
    rw [e0]; exact h
  | ⟨1, _⟩ =>
    show win1_8.index t (1 : Fin 2) * 16 ≤ (i 1).val ∧ (i 1).val < win1_8.index t (1 : Fin 2) * 16 + 16
    rw [e1]; omega

/-- Every row of the output lies in some point's block: row `r` in block `r / 4000`. -/
theorem cover1 (i : S200000x16.Idx) :
    ∃ t : Fin cfg1.N, (cfg1.win 8).flush t = true ∧ i ∈ ((cfg1.win 8).blk t).view.set := by
  have hi0 : (i 0).val < 200000 := (i 0).isLt
  have hN : cfg1.N = 50 := N_1
  have hlt : (i 0).val / 4000 < cfg1.N := by rw [hN]; omega
  refine ⟨⟨(i 0).val / 4000, hlt⟩, flush1_8 _, mem_block1 _ i ?_⟩
  show (i 0).val / 4000 * 4000 ≤ (i 0).val ∧ (i 0).val < (i 0).val / 4000 * 4000 + 4000
  omega

/-- THE SECOND REGION'S OUTPUT ARRAY after its run: the node output of every row of the arrays it found. -/
theorem region1_array (c : Dev nD) : (dat1 V c).arrAt 8 cfg1.N = outOf V c :=
  (dat1 V c).arrAt_eq_of_cover 8 (outOf V c) (fun t _ => flushed1 V c t) (cover1)

end Cert.EdgeAgg.Post

end
-- ==== Proof.KernelHost.lean ====
/-
  The program around its two regions, read back to the launch memory.  Before the first region the host slices the
  two index rows out of the index pair, wraps negative indices, gathers the endpoints' rows and appends 1792 rows (of
  a converted integer zero) below the gathered rows and below the edge features, which makes the row count a whole
  number of 4096-row blocks.  Between the regions it cuts the first region's output back to the 4000000 real rows and
  adds each message into its right endpoint's row of a zero array.  The second region's output is the result.
  Put together with what each region leaves: the result is the node output of (the aggregate of the messages of the
  un-padded inputs, the right nodes' features), the appended rows having changed no message.
-/
import proofs.«122030_j60610578481387_1_alg».proof.Proof.Gen.KernelIdeal.Frame
import proofs.«122030_j60610578481387_1_alg».proof.Proof.Blocks0
import proofs.«122030_j60610578481387_1_alg».proof.Proof.Blocks1
import Idealize.ShloMosaic.Lib.StableHlo.Run

set_option maxRecDepth 16384

noncomputable section

namespace Cert.EdgeAgg.Around

open Cert.EdgeAgg Cert.KernelIdeal Cert.KernelIdeal.Gen
open Idealize.ShloMosaic Idealize.ShloMosaic.TcCoe Idealize.ShloMosaic.ValueIdx Idealize.SL.Sem Idealize.ShloMosaic.StableHlo

/-! ## The host's values as functions of the arguments -/

/-- Row `k` of the index pair as a vector of 4000000 indices. -/
def indexRow (k : Fin 2 → ℕ) (hk : S2x4000000.Slices k S1x4000000) (a3 : IVec S2x4000000 32) : IVec S4000000 32 :=
  shapeCast S4000000 (extractStridedSlice S1x4000000 k a3 hk) shapeCasts_S1x4000000_S4000000

/-- Indices below zero moved up by the table's 200000 rows, as a column. -/
def wrapped (r : IVec S4000000 32) : IVec S4000000x1 32 :=
  broadcastInDim S4000000x1 ![0] bcast_S4000000_S4000000x1_0
    (select (cmpi .slt r (broadcastInDim S4000000 ![] bcast_S_S4000000 (constantI S_ 32 0#32)))
      (addi r (broadcastInDim S4000000 ![] bcast_S_S4000000 (constantI S_ 32 200000#32))) r)

/-- The table's rows at the wrapped indices. -/
def rowsAt (x : FVec Ideal S200000x16 .f32) (r : IVec S4000000 32) : FVec Ideal S4000000x16 .f32 :=
  Host.gather gather_S200000x16_S4000000x1_S4000000x16_1_0_n_n_0_1_116 x (wrapped r)

/-- 1792 rows appended below a 16-wide array. -/
def padded16 (x : FVec Ideal S4000000x16 .f32) : FVec Ideal S4001792x16 .f32 :=
  pad S4001792x16 ![0, 0] ![1792, 0] ![0, 0] x (sitofp (F := Ideal) .f32 (constantI S_ 32 0#32))
    pads_S4000000x16_S4001792x16_017920_000 h_S_

/-- 1792 rows appended below a 1-wide array. -/
def padded1 (x : FVec Ideal S4000000x1 .f32) : FVec Ideal S4001792x1 .f32 :=
  pad S4001792x1 ![0, 0] ![1792, 0] ![0, 0] x (sitofp (F := Ideal) .f32 (constantI S_ 32 0#32))
    pads_S4000000x1_S4001792x1_017920_000 h_S_

/-- Each message added into the row of a zero array that its (unwrapped) right index names. -/
def aggregate (r : IVec S4000000 32) (msg : FVec Ideal S4000000x16 .f32) : FVec Ideal S200000x16 .f32 :=
  Host.scatterAdd scatter_S200000x16_S4000000x1_S4000000x16_1_0_0_1
    (broadcastInDim S200000x16 ![] bcast_S_S200000x16 (constant S_ .f32 0x00000000#32))
    (broadcastInDim S4000000x1 ![0] bcast_S4000000_S4000000x1_0 r) msg

variable (m : (ℓ : Loc nD τ sig) → Buf (Elt Ideal) ℓ) (ρ : Dev nD → PrngReg)

/-! ## What the first region finds -/

theorem entry_v18 (c : Dev nD) : V6 m ρ c main_v18
    = padded16 (rowsAt (m ((c : Thread nD τ).loc main_arg0)) (indexRow ![0, 0] slices_S2x4000000_S1x4000000_0_0 (m ((c : Thread nD τ).loc main_arg3)))) := by
  show StableHlo.after hostOps0_5 (StableHlo.after hostOps0_4 (StableHlo.after hostOps0_3 (StableHlo.after hostOps0_2 (StableHlo.after hostOps0_1 (StableHlo.after hostOps0 (W0 m ρ c)))))) (Proc.devRef .tc main_v18) = _
  after_results
  rfl

set_option maxHeartbeats 4000000 in
theorem entry_v19 (c : Dev nD) : V6 m ρ c main_v19
    = padded16 (rowsAt (m ((c : Thread nD τ).loc main_arg2)) (indexRow ![1, 0] slices_S2x4000000_S1x4000000_1_0 (m ((c : Thread nD τ).loc main_arg3)))) := by
  show StableHlo.after hostOps0_5 (StableHlo.after hostOps0_4 (StableHlo.after hostOps0_3 (StableHlo.after hostOps0_2 (StableHlo.after hostOps0_1 (StableHlo.after hostOps0 (W0 m ρ c)))))) (Proc.devRef .tc main_v19) = _
  after_results
  rfl

theorem entry_v20 (c : Dev nD) : V6 m ρ c main_v20 = padded1 (m ((c : Thread nD τ).loc main_arg1)) := by
  show StableHlo.after hostOps0_5 (StableHlo.after hostOps0_4 (StableHlo.after hostOps0_3 (StableHlo.after hostOps0_2 (StableHlo.after hostOps0_1 (StableHlo.after hostOps0 (W0 m ρ c)))))) (Proc.devRef .tc main_v20) = _
  after_results
  rfl

theorem entry_arg4 (c : Dev nD) : V6 m ρ c main_arg4 = m ((c : Thread nD τ).loc main_arg4) := by
  show StableHlo.after hostOps0_5 (StableHlo.after hostOps0_4 (StableHlo.after hostOps0_3 (StableHlo.after hostOps0_2 (StableHlo.after hostOps0_1 (StableHlo.after hostOps0 (W0 m ρ c)))))) (Proc.devRef .tc main_arg4) = _
  after_results

theorem entry_arg5 (c : Dev nD) : V6 m ρ c main_arg5 = m ((c : Thread nD τ).loc main_arg5) := by
  show StableHlo.after hostOps0_5 (StableHlo.after hostOps0_4 (StableHlo.after hostOps0_3 (StableHlo.after hostOps0_2 (StableHlo.after hostOps0_1 (StableHlo.after hostOps0 (W0 m ρ c)))))) (Proc.devRef .tc main_arg5) = _
  after_results

theorem entry_arg6 (c : Dev nD) : V6 m ρ c main_arg6 = m ((c : Thread nD τ).loc main_arg6) := by
  show StableHlo.after hostOps0_5 (StableHlo.after hostOps0_4 (StableHlo.after hostOps0_3 (StableHlo.after hostOps0_2 (StableHlo.after hostOps0_1 (StableHlo.after hostOps0 (W0 m ρ c)))))) (Proc.devRef .tc main_arg6) = _
  after_results

theorem entry_arg7 (c : Dev nD) : V6 m ρ c main_arg7 = m ((c : Thread nD τ).loc main_arg7) := by
  show StableHlo.after hostOps0_5 (StableHlo.after hostOps0_4 (StableHlo.after hostOps0_3 (StableHlo.after hostOps0_2 (StableHlo.after hostOps0_1 (StableHlo.after hostOps0 (W0 m ρ c)))))) (Proc.devRef .tc main_arg7) = _
  after_results

theorem entry_arg8 (c : Dev nD) : V6 m ρ c main_arg8 = m ((c : Thread nD τ).loc main_arg8) := by
  show StableHlo.after hostOps0_5 (StableHlo.after hostOps0_4 (StableHlo.after hostOps0_3 (StableHlo.after hostOps0_2 (StableHlo.after hostOps0_1 (StableHlo.after hostOps0 (W0 m ρ c)))))) (Proc.devRef .tc main_arg8) = _
  after_results

theorem entry_arg9 (c : Dev nD) : V6 m ρ c main_arg9 = m ((c : Thread nD τ).loc main_arg9) := by
  show StableHlo.after hostOps0_5 (StableHlo.after hostOps0_4 (StableHlo.after hostOps0_3 (StableHlo.after hostOps0_2 (StableHlo.after hostOps0_1 (StableHlo.after hostOps0 (W0 m ρ c)))))) (Proc.devRef .tc main_arg9) = _
  after_results

/-! ## What the second region finds -/

/-- The right index row is still there when the first region has run: no region and no later operation writes it. -/
theorem mid_v3 (c : Dev nD) : W7 m ρ c (Proc.devRef .tc main_v3)
    = indexRow ![1, 0] slices_S2x4000000_S1x4000000_1_0 (m ((c : Thread nD τ).loc main_arg3)) := by
  refine (W7_of_ne m ρ c main_v3 (by decide)).trans ?_
  show StableHlo.after hostOps0_5 (StableHlo.after hostOps0_4 (StableHlo.after hostOps0_3 (StableHlo.after hostOps0_2 (StableHlo.after hostOps0_1 (StableHlo.after hostOps0 (W0 m ρ c)))))) (Proc.devRef .tc main_v3) = _
  after_results
  rfl

/-- The first region's output array when it has run: the message of every row of the padded inputs. -/
theorem mid_v21 (c : Dev nD) : W7 m ρ c (Proc.devRef .tc main_v21)
    = edgeArr (padded16 (rowsAt (m ((c : Thread nD τ).loc main_arg0)) (indexRow ![0, 0] slices_S2x4000000_S1x4000000_0_0 (m ((c : Thread nD τ).loc main_arg3)))))
        (padded1 (m ((c : Thread nD τ).loc main_arg1)))
        (padded16 (rowsAt (m ((c : Thread nD τ).loc main_arg2)) (indexRow ![1, 0] slices_S2x4000000_S1x4000000_1_0 (m ((c : Thread nD τ).loc main_arg3)))))
        (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W7_arr m ρ c 9).trans ?_
  rw [region0_array]
  show edgeArr (V6 m ρ c main_v18) (V6 m ρ c main_v20) (V6 m ρ c main_v19) (V6 m ρ c main_arg4) (V6 m ρ c main_arg5)
    (V6 m ρ c main_arg6) (V6 m ρ c main_arg7) (V6 m ρ c main_arg8) (V6 m ρ c main_arg9) = _
  rw [entry_v18, entry_v19, entry_v20, entry_arg4, entry_arg5, entry_arg6, entry_arg7, entry_arg8, entry_arg9]

/-- The aggregate the second region finds: the messages of the UN-padded inputs, added up by right endpoint. -/
theorem entry_v25 (c : Dev nD) : V8 m ρ c main_v25
    = aggregate (indexRow ![1, 0] slices_S2x4000000_S1x4000000_1_0 (m ((c : Thread nD τ).loc main_arg3)))
        (edgeArr (rowsAt (m ((c : Thread nD τ).loc main_arg0)) (indexRow ![0, 0] slices_S2x4000000_S1x4000000_0_0 (m ((c : Thread nD τ).loc main_arg3)))) (m ((c : Thread nD τ).loc main_arg1))
          (rowsAt (m ((c : Thread nD τ).loc main_arg2)) (indexRow ![1, 0] slices_S2x4000000_S1x4000000_1_0 (m ((c : Thread nD τ).loc main_arg3))))
          (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  have h : (V8 m ρ c main_v25 : FVec Ideal S200000x16 .f32) = Host.scatterAdd (F := Ideal) scatter_S200000x16_S4000000x1_S4000000x16_1_0_0_1
      (broadcastInDim S200000x16 ![] bcast_S_S200000x16 (constant (F := Ideal) S_ .f32 0x00000000#32))
      (broadcastInDim S4000000x1 ![0] bcast_S4000000_S4000000x1_0 (W7 m ρ c (Proc.devRef .tc main_v3) : IVec S4000000 32))
      (extractStridedSlice S4000000x16 ![0, 0] (W7 m ρ c (Proc.devRef .tc main_v21) : FVec Ideal S4001792x16 .f32) slices_S4001792x16_S4000000x16_0_0) := by
    show StableHlo.after hostOps1 (W7 m ρ c) (Proc.devRef .tc main_v25) = _
    after_results
  rw [h, mid_v3, mid_v21]
  unfold aggregate padded16 padded1
  rw [edgeArr_pad_slice (by decide : (4000000 : ℕ) ≤ 4001792)]

theorem exit_arg2 (c : Dev nD) : V8 m ρ c main_arg2 = m ((c : Thread nD τ).loc main_arg2) := by
  show StableHlo.after hostOps1 (W7 m ρ c) (Proc.devRef .tc main_arg2) = _
  after_results
  refine (W7_of_ne m ρ c main_arg2 (by decide)).trans ?_
  show StableHlo.after hostOps0_5 (StableHlo.after hostOps0_4 (StableHlo.after hostOps0_3 (StableHlo.after hostOps0_2 (StableHlo.after hostOps0_1 (StableHlo.after hostOps0 (W0 m ρ c)))))) (Proc.devRef .tc main_arg2) = _
  after_results

theorem exit_arg10 (c : Dev nD) : V8 m ρ c main_arg10 = m ((c : Thread nD τ).loc main_arg10) := by
  show StableHlo.after hostOps1 (W7 m ρ c) (Proc.devRef .tc main_arg10) = _
  after_results
  refine (W7_of_ne m ρ c main_arg10 (by decide)).trans ?_
  show StableHlo.after hostOps0_5 (StableHlo.after hostOps0_4 (StableHlo.after hostOps0_3 (StableHlo.after hostOps0_2 (StableHlo.after hostOps0_1 (StableHlo.after hostOps0 (W0 m ρ c)))))) (Proc.devRef .tc main_arg10) = _
  after_results

theorem exit_arg11 (c : Dev nD) : V8 m ρ c main_arg11 = m ((c : Thread nD τ).loc main_arg11) := by
  show StableHlo.after hostOps1 (W7 m ρ c) (Proc.devRef .tc main_arg11) = _
  after_results
  refine (W7_of_ne m ρ c main_arg11 (by decide)).trans ?_
  show StableHlo.after hostOps0_5 (StableHlo.after hostOps0_4 (StableHlo.after hostOps0_3 (StableHlo.after hostOps0_2 (StableHlo.after hostOps0_1 (StableHlo.after hostOps0 (W0 m ρ c)))))) (Proc.devRef .tc main_arg11) = _
  after_results

theorem exit_arg12 (c : Dev nD) : V8 m ρ c main_arg12 = m ((c : Thread nD τ).loc main_arg12) := by
  show StableHlo.after hostOps1 (W7 m ρ c) (Proc.devRef .tc main_arg12) = _
  after_results
  refine (W7_of_ne m ρ c main_arg12 (by decide)).trans ?_
  show StableHlo.after hostOps0_5 (StableHlo.after hostOps0_4 (StableHlo.after hostOps0_3 (StableHlo.after hostOps0_2 (StableHlo.after hostOps0_1 (StableHlo.after hostOps0 (W0 m ρ c)))))) (Proc.devRef .tc main_arg12) = _
  after_results

theorem exit_arg13 (c : Dev nD) : V8 m ρ c main_arg13 = m ((c : Thread nD τ).loc main_arg13) := by
  show StableHlo.after hostOps1 (W7 m ρ c) (Proc.devRef .tc main_arg13) = _
  after_results
  refine (W7_of_ne m ρ c main_arg13 (by decide)).trans ?_
  show StableHlo.after hostOps0_5 (StableHlo.after hostOps0_4 (StableHlo.after hostOps0_3 (StableHlo.after hostOps0_2 (StableHlo.after hostOps0_1 (StableHlo.after hostOps0 (W0 m ρ c)))))) (Proc.devRef .tc main_arg13) = _
  after_results

theorem exit_arg14 (c : Dev nD) : V8 m ρ c main_arg14 = m ((c : Thread nD τ).loc main_arg14) := by
  show StableHlo.after hostOps1 (W7 m ρ c) (Proc.devRef .tc main_arg14) = _
  after_results
  refine (W7_of_ne m ρ c main_arg14 (by decide)).trans ?_
  show StableHlo.after hostOps0_5 (StableHlo.after hostOps0_4 (StableHlo.after hostOps0_3 (StableHlo.after hostOps0_2 (StableHlo.after hostOps0_1 (StableHlo.after hostOps0 (W0 m ρ c)))))) (Proc.devRef .tc main_arg14) = _
  after_results

theorem exit_arg15 (c : Dev nD) : V8 m ρ c main_arg15 = m ((c : Thread nD τ).loc main_arg15) := by
  show StableHlo.after hostOps1 (W7 m ρ c) (Proc.devRef .tc main_arg15) = _
  after_results
  refine (W7_of_ne m ρ c main_arg15 (by decide)).trans ?_
  show StableHlo.after hostOps0_5 (StableHlo.after hostOps0_4 (StableHlo.after hostOps0_3 (StableHlo.after hostOps0_2 (StableHlo.after hostOps0_1 (StableHlo.after hostOps0 (W0 m ρ c)))))) (Proc.devRef .tc main_arg15) = _
  after_results

/-! ## The result -/

/-- THE RESULT ARRAY when the program has run, as one function of the arguments. -/
theorem result_eq (c : Dev nD) : W9 m ρ c (Proc.devRef .tc main_v26)
    = postArr
        (aggregate (indexRow ![1, 0] slices_S2x4000000_S1x4000000_1_0 (m ((c : Thread nD τ).loc main_arg3)))
          (edgeArr (rowsAt (m ((c : Thread nD τ).loc main_arg0)) (indexRow ![0, 0] slices_S2x4000000_S1x4000000_0_0 (m ((c : Thread nD τ).loc main_arg3)))) (m ((c : Thread nD τ).loc main_arg1))
            (rowsAt (m ((c : Thread nD τ).loc main_arg2)) (indexRow ![1, 0] slices_S2x4000000_S1x4000000_1_0 (m ((c : Thread nD τ).loc main_arg3))))
            (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))))
        (m ((c : Thread nD τ).loc main_arg2)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) := by
  refine (W9_arr m ρ c 8).trans ?_
  rw [Post.region1_array]
  show postArr (V8 m ρ c main_v25) (V8 m ρ c main_arg2) (V8 m ρ c main_arg10) (V8 m ρ c main_arg11) (V8 m ρ c main_arg12)
    (V8 m ρ c main_arg13) (V8 m ρ c main_arg14) (V8 m ρ c main_arg15) = _
  rw [entry_v25, exit_arg2, exit_arg10, exit_arg11, exit_arg12, exit_arg13, exit_arg14, exit_arg15]

end Cert.EdgeAgg.Around

end
-- ==== Proof.RefValue.lean ====
/-
  The reference program's result as the same whole-array functions.  Its message stage is the message of every row
  of (the gathered left rows, the edge features, the gathered right rows); its last stage is the node output of every
  row of (the aggregate, the right nodes' features).  Each is a chain of the host's affine layers and rectifiers on
  whole arrays, so an entry unfolds layer by layer into the per-row formulas.  The gathers and the scatter-add between
  the two chains are carried as they are.
-/
import proofs.«122030_j60610578481387_1_alg».proof.Proof.Gen.ReferenceIdeal.Read
import proofs.«122030_j60610578481387_1_alg».proof.Proof.Spec

noncomputable section

namespace Cert.EdgeAgg.Ref

open Cert.EdgeAgg Cert.ReferenceIdeal Cert.ReferenceIdeal.Read
open Idealize.ShloMosaic Idealize.ShloMosaic.ValueIdx Cert.Gcn

/-- Each of the reference's four kinds of product contracts the left operand's columns with the right operand's
    rows. -/
theorem plain_E_16 : IsPlain dot_S4000000x16_S16x16_S4000000x16_1_0_0_1_n_n := ⟨rfl, rfl, rfl, rfl, rfl, rfl⟩
theorem plain_E_1 : IsPlain dot_S4000000x1_S1x16_S4000000x16_1_0_0_1_n_n := ⟨rfl, rfl, rfl, rfl, rfl, rfl⟩
theorem plain_R_16 : IsPlain dot_S200000x16_S16x16_S200000x16_1_0_0_1_n_n := ⟨rfl, rfl, rfl, rfl, rfl, rfl⟩
theorem plain_R_32 : IsPlain dot_S200000x32_S32x16_S200000x16_1_0_0_1_n_n := ⟨rfl, rfl, rfl, rfl, rfl, rfl⟩

/-- The message stage is the message array of the gathered rows and the edge features. -/
theorem msg_stage (x0 : FVec Ideal S200000x16 .f32) (x1 : FVec Ideal S4000000x1 .f32) (x2 : FVec Ideal S200000x16 .f32)
    (x3 : IVec S2x4000000 32) (x4 : FVec Ideal S16x16 .f32) (x5 : FVec Ideal S16 .f32) (x6 : FVec Ideal S16x1 .f32)
    (x7 x8 : FVec Ideal S16x16 .f32) (x9 : FVec Ideal S16 .f32) :
    val_main_v34 (F := Ideal) x0 x1 x2 x3 x4 x5 x6 x7 x8 x9
      = edgeArr (val_main_v10 (F := Ideal) x0 x3) x1 (val_main_v25 (F := Ideal) x2 x3) x4 x5 x6 x7 x8 x9 := by
  funext j
  obtain ⟨p, q, rfl⟩ : ∃ (p : Fin 4000000) (q : Fin 16), j = ix2 p q := ⟨j 0, j 1, eq_ix2 j⟩
  rw [edgeArr_apply]
  unfold val_main_v34 val_main_v33 val_main_v32 val_main_v31 val_main_v30 val_main_v29 val_main_call0_v0 val_main_call0_cst
    val_main_v28 val_main_v27 val_main_v26 val_main_v18 val_main_v17 val_main_v16 val_main_v15 val_main_v14 val_main_v13
    val_main_v12 val_main_v11 edgeRow
  simp only [host_lin_apply _ plain_E_16, host_mul_apply _ plain_E_16, host_mul_apply _ plain_E_1, addf_apply,
    host_relu_apply _ Gen.bcast_S_S4000000x16]

/-- The last stage is the output array of the aggregate and the right nodes' features. -/
theorem out_stage (x0 : FVec Ideal S200000x16 .f32) (x1 : FVec Ideal S4000000x1 .f32) (x2 : FVec Ideal S200000x16 .f32)
    (x3 : IVec S2x4000000 32) (x4 : FVec Ideal S16x16 .f32) (x5 : FVec Ideal S16 .f32) (x6 : FVec Ideal S16x1 .f32)
    (x7 x8 : FVec Ideal S16x16 .f32) (x9 : FVec Ideal S16 .f32) (x10 : FVec Ideal S16x16 .f32) (x11 : FVec Ideal S16 .f32)
    (x12 : FVec Ideal S16x32 .f32) (x13 : FVec Ideal S16 .f32) (x14 : FVec Ideal S16x16 .f32) (x15 : FVec Ideal S16 .f32) :
    val_main_v55 (F := Ideal) x0 x1 x2 x3 x4 x5 x6 x7 x8 x9 x10 x11 x12 x13 x14 x15
      = postArr (val_main_v37 (F := Ideal) x0 x1 x2 x3 x4 x5 x6 x7 x8 x9) x2 x10 x11 x12 x13 x14 x15 := by
  funext j
  obtain ⟨p, q, rfl⟩ : ∃ (p : Fin 200000) (q : Fin 16), j = ix2 p q := ⟨j 0, j 1, eq_ix2 j⟩
  rw [postArr_apply]
  unfold val_main_v55 val_main_v54 val_main_v53 val_main_v52 val_main_v51 val_main_v50 val_main_call2_v0 val_main_call2_cst
    val_main_v49 val_main_v48 val_main_v47 val_main_v46 val_main_v45 val_main_v44 val_main_v43 val_main_v42 val_main_v41
    val_main_v40 val_main_v39 val_main_v38 val_main_call1_v0 val_main_call1_cst postRow
  simp only [host_lin_apply _ plain_R_16, host_lin_apply _ plain_R_32, host_relu_apply _ Gen.bcast_S_S200000x16, cat_apply]

end Cert.EdgeAgg.Ref

end
-- ==== Proof.lean ====
/-
  One round of message passing on a bipartite graph, as a tiled two-kernel program against its plain array program:
  equal results on the extended reals.

  Both programs gather the two endpoints' feature rows of every edge, form the edge's message (an affine layer of the
  rectified sum of three linear contributions), add each message into its right endpoint's row, and send every right
  node's aggregate, side by side with the node's own features, through three more layers.  The array program does each
  layer on whole arrays.  The tiled program runs the message chain on blocks of 4096 edges — after appending 1792 rows
  to make the 4000000 edges a whole number of blocks, and cutting them off again afterwards — and the node chain on
  blocks of 4000 nodes, casting the operands of every product to a narrower float format first.

  On the extended reals the casts are the identity and a product into a zero accumulator is the plain sum, so a
  block's row holds exactly the per-row formula of that row of the arrays; the blocks tile the arrays; a message
  depends on its own row only, so the appended rows change nothing; and the gathers and the scatter-add are the same
  operations on equal operands in both programs.  Hence both results are ONE function of the arguments
  (`resultFn` below), entry by entry.  No law that needs finite inputs is used.

  The frames: the tiled program's two (bit-level and idealized) are the generated frame certificates; the array
  program's is its generated run with the result dropped.  The idealization rewrote nothing, so it is preserved
  trivially.
-/
import proofs.«122030_j60610578481387_1_alg».proof.Defs
import proofs.«122030_j60610578481387_1_alg».proof.Proof.Gen.Kernel
import proofs.«122030_j60610578481387_1_alg».proof.Proof.Gen.Kernel.Skeleton
import proofs.«122030_j60610578481387_1_alg».proof.Proof.Gen.Kernel.Launch
import proofs.«122030_j60610578481387_1_alg».proof.Proof.Gen.Kernel.Points
import proofs.«122030_j60610578481387_1_alg».proof.Proof.Gen.Kernel.Frame
import proofs.«122030_j60610578481387_1_alg».proof.Proof.Gen.KernelIdeal
import proofs.«122030_j60610578481387_1_alg».proof.Proof.Gen.KernelIdeal.Skeleton
import proofs.«122030_j60610578481387_1_alg».proof.Proof.Gen.KernelIdeal.Launch
import proofs.«122030_j60610578481387_1_alg».proof.Proof.Gen.KernelIdeal.Points
import proofs.«122030_j60610578481387_1_alg».proof.Proof.Gen.KernelIdeal.Frame
import proofs.«122030_j60610578481387_1_alg».proof.Proof.Gen.ReferenceIdeal
import proofs.«122030_j60610578481387_1_alg».proof.Proof.Gen.ReferenceIdeal.Run
import proofs.«122030_j60610578481387_1_alg».proof.Proof.Gen.ReferenceIdeal.Read
import proofs.«122030_j60610578481387_1_alg».proof.Proof.Gen.Pre_finite_inputs
import proofs.«122030_j60610578481387_1_alg».proof.Proof.KernelRun
import proofs.«122030_j60610578481387_1_alg».proof.Proof.KernelHost
import proofs.«122030_j60610578481387_1_alg».proof.Proof.RefValue
import Idealize.ShloMosaic.Adequacy
import Idealize.ShloMosaic.Init

set_option maxRecDepth 16384

noncomputable section

namespace Cert.Proof

open Idealize.ShloMosaic Idealize.SL.Sem
open Cert.EdgeAgg Cert.EdgeAgg.Around

/-- THE RESULT of either program as one function of the sixteen arguments: the node output of (the aggregate, by
    right endpoint, of every edge's message; the right nodes' features). -/
def resultFn (a0 : FVec Ideal Cert.KernelIdeal.S200000x16 .f32) (a1 : FVec Ideal Cert.KernelIdeal.S4000000x1 .f32) (a2 : FVec Ideal Cert.KernelIdeal.S200000x16 .f32)
    (a3 : IVec Cert.KernelIdeal.S2x4000000 32) (a4 : FVec Ideal Cert.KernelIdeal.S16x16 .f32) (a5 : FVec Ideal Cert.KernelIdeal.S16 .f32)
    (a6 : FVec Ideal Cert.KernelIdeal.S16x1 .f32) (a7 a8 : FVec Ideal Cert.KernelIdeal.S16x16 .f32) (a9 : FVec Ideal Cert.KernelIdeal.S16 .f32)
    (a10 : FVec Ideal Cert.KernelIdeal.S16x16 .f32) (a11 : FVec Ideal Cert.KernelIdeal.S16 .f32) (a12 : FVec Ideal Cert.KernelIdeal.S16x32 .f32)
    (a13 : FVec Ideal Cert.KernelIdeal.S16 .f32) (a14 : FVec Ideal Cert.KernelIdeal.S16x16 .f32) (a15 : FVec Ideal Cert.KernelIdeal.S16 .f32) : FVec Ideal Cert.KernelIdeal.S200000x16 .f32 :=
  postArr
    (aggregate (indexRow ![1, 0] Cert.KernelIdeal.Gen.slices_S2x4000000_S1x4000000_1_0 a3)
      (edgeArr (rowsAt a0 (indexRow ![0, 0] Cert.KernelIdeal.Gen.slices_S2x4000000_S1x4000000_0_0 a3)) a1
        (rowsAt a2 (indexRow ![1, 0] Cert.KernelIdeal.Gen.slices_S2x4000000_S1x4000000_1_0 a3)) a4 a5 a6 a7 a8 a9))
    a2 a10 a11 a12 a13 a14 a15

/-- The array program's last stage is the node output of (its aggregate stage, the right nodes' features). -/
theorem reference_nodes (a0 : FVec Ideal Cert.KernelIdeal.S200000x16 .f32) (a1 : FVec Ideal Cert.KernelIdeal.S4000000x1 .f32) (a2 : FVec Ideal Cert.KernelIdeal.S200000x16 .f32)
    (a3 : IVec Cert.KernelIdeal.S2x4000000 32) (a4 : FVec Ideal Cert.KernelIdeal.S16x16 .f32) (a5 : FVec Ideal Cert.KernelIdeal.S16 .f32)
    (a6 : FVec Ideal Cert.KernelIdeal.S16x1 .f32) (a7 a8 : FVec Ideal Cert.KernelIdeal.S16x16 .f32) (a9 : FVec Ideal Cert.KernelIdeal.S16 .f32)
    (a10 : FVec Ideal Cert.KernelIdeal.S16x16 .f32) (a11 : FVec Ideal Cert.KernelIdeal.S16 .f32) (a12 : FVec Ideal Cert.KernelIdeal.S16x32 .f32)
    (a13 : FVec Ideal Cert.KernelIdeal.S16 .f32) (a14 : FVec Ideal Cert.KernelIdeal.S16x16 .f32) (a15 : FVec Ideal Cert.KernelIdeal.S16 .f32) :
    Cert.ReferenceIdeal.Read.val_main_v55 (F := Ideal) a0 a1 a2 a3 a4 a5 a6 a7 a8 a9 a10 a11 a12 a13 a14 a15
      = postArr (Cert.ReferenceIdeal.Read.val_main_v37 (F := Ideal) a0 a1 a2 a3 a4 a5 a6 a7 a8 a9) a2 a10 a11 a12 a13 a14 a15 :=
  Ref.out_stage a0 a1 a2 a3 a4 a5 a6 a7 a8 a9 a10 a11 a12 a13 a14 a15

/-- The array program's aggregate stage is the aggregate of the messages of the gathered rows: its message stage is
    the per-row formula on whole arrays, and its index rows, gathers and scatter-add are the tiled program's, spelt the
    same. -/
theorem reference_aggregate (a0 : FVec Ideal Cert.KernelIdeal.S200000x16 .f32) (a1 : FVec Ideal Cert.KernelIdeal.S4000000x1 .f32) (a2 : FVec Ideal Cert.KernelIdeal.S200000x16 .f32)
    (a3 : IVec Cert.KernelIdeal.S2x4000000 32) (a4 : FVec Ideal Cert.KernelIdeal.S16x16 .f32) (a5 : FVec Ideal Cert.KernelIdeal.S16 .f32)
    (a6 : FVec Ideal Cert.KernelIdeal.S16x1 .f32) (a7 a8 : FVec Ideal Cert.KernelIdeal.S16x16 .f32) (a9 : FVec Ideal Cert.KernelIdeal.S16 .f32)
    (a10 : FVec Ideal Cert.KernelIdeal.S16x16 .f32) (a11 : FVec Ideal Cert.KernelIdeal.S16 .f32) (a12 : FVec Ideal Cert.KernelIdeal.S16x32 .f32)
    (a13 : FVec Ideal Cert.KernelIdeal.S16 .f32) (a14 : FVec Ideal Cert.KernelIdeal.S16x16 .f32) (a15 : FVec Ideal Cert.KernelIdeal.S16 .f32) :
    Cert.ReferenceIdeal.Read.val_main_v37 (F := Ideal) a0 a1 a2 a3 a4 a5 a6 a7 a8 a9
      = aggregate (indexRow ![1, 0] Cert.KernelIdeal.Gen.slices_S2x4000000_S1x4000000_1_0 a3)
          (edgeArr (rowsAt a0 (indexRow ![0, 0] Cert.KernelIdeal.Gen.slices_S2x4000000_S1x4000000_0_0 a3)) a1
            (rowsAt a2 (indexRow ![1, 0] Cert.KernelIdeal.Gen.slices_S2x4000000_S1x4000000_1_0 a3)) a4 a5 a6 a7 a8 a9) := by
  unfold Cert.ReferenceIdeal.Read.val_main_v37
  refine (congrArg _ (Ref.msg_stage a0 a1 a2 a3 a4 a5 a6 a7 a8 a9)).trans ?_
  unfold aggregate rowsAt wrapped indexRow
    Cert.ReferenceIdeal.Read.val_main_v35 Cert.ReferenceIdeal.Read.val_main_cst Cert.ReferenceIdeal.Read.val_main_v36
    Cert.ReferenceIdeal.Read.val_main_v10 Cert.ReferenceIdeal.Read.val_main_v9 Cert.ReferenceIdeal.Read.val_main_v8 Cert.ReferenceIdeal.Read.val_main_v7 Cert.ReferenceIdeal.Read.val_main_v6
    Cert.ReferenceIdeal.Read.val_main_c_0 Cert.ReferenceIdeal.Read.val_main_v5 Cert.ReferenceIdeal.Read.val_main_v4 Cert.ReferenceIdeal.Read.val_main_c
    Cert.ReferenceIdeal.Read.val_main_v25 Cert.ReferenceIdeal.Read.val_main_v24 Cert.ReferenceIdeal.Read.val_main_v23 Cert.ReferenceIdeal.Read.val_main_v22 Cert.ReferenceIdeal.Read.val_main_v21
    Cert.ReferenceIdeal.Read.val_main_c_2 Cert.ReferenceIdeal.Read.val_main_v20 Cert.ReferenceIdeal.Read.val_main_v19 Cert.ReferenceIdeal.Read.val_main_c_1
    Cert.ReferenceIdeal.Read.val_main_v3 Cert.ReferenceIdeal.Read.val_main_v2 Cert.ReferenceIdeal.Read.val_main_v1 Cert.ReferenceIdeal.Read.val_main_v0
  rfl

/-- So the array program's result is `resultFn` of its arguments. -/
theorem reference_result (a0 : FVec Ideal Cert.KernelIdeal.S200000x16 .f32) (a1 : FVec Ideal Cert.KernelIdeal.S4000000x1 .f32) (a2 : FVec Ideal Cert.KernelIdeal.S200000x16 .f32)
    (a3 : IVec Cert.KernelIdeal.S2x4000000 32) (a4 : FVec Ideal Cert.KernelIdeal.S16x16 .f32) (a5 : FVec Ideal Cert.KernelIdeal.S16 .f32)
    (a6 : FVec Ideal Cert.KernelIdeal.S16x1 .f32) (a7 a8 : FVec Ideal Cert.KernelIdeal.S16x16 .f32) (a9 : FVec Ideal Cert.KernelIdeal.S16 .f32)
    (a10 : FVec Ideal Cert.KernelIdeal.S16x16 .f32) (a11 : FVec Ideal Cert.KernelIdeal.S16 .f32) (a12 : FVec Ideal Cert.KernelIdeal.S16x32 .f32)
    (a13 : FVec Ideal Cert.KernelIdeal.S16 .f32) (a14 : FVec Ideal Cert.KernelIdeal.S16x16 .f32) (a15 : FVec Ideal Cert.KernelIdeal.S16 .f32) :
    Cert.ReferenceIdeal.Read.val_main_v55 (F := Ideal) a0 a1 a2 a3 a4 a5 a6 a7 a8 a9 a10 a11 a12 a13 a14 a15 = resultFn a0 a1 a2 a3 a4 a5 a6 a7 a8 a9 a10 a11 a12 a13 a14 a15 :=
  (reference_nodes a0 a1 a2 a3 a4 a5 a6 a7 a8 a9 a10 a11 a12 a13 a14 a15).trans
    (congrArg (fun A => postArr A a2 a10 a11 a12 a13 a14 a15) (reference_aggregate a0 a1 a2 a3 a4 a5 a6 a7 a8 a9 a10 a11 a12 a13 a14 a15))

theorem frame_kernel : Cert.frame_Kernel := fun m ρ _ => Cert.Kernel.Gen.frame m ρ

theorem frame_kernelIdeal : Cert.frame_KernelIdeal := fun m ρ _ => Cert.KernelIdeal.Gen.frame m ρ

/-- The array program's frame: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealizing pass rewrote no operation. -/
theorem preserves : Cert.preserves_Kernel_KernelIdeal := trivial

/-- Both programs end at `resultFn` of the (agreeing) arguments. -/
theorem algebraic : Cert.algebraic_KernelIdeal_ReferenceIdeal := by
  intro m ρ m' ρ' _ hagree
  refine ⟨fun c => resultFn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)), ?_, ?_⟩
  · exact (θ_run Cert.KernelIdeal.defs _ _).mono
      (fun r h c => ⟨(h c).1.trans (result_eq m ρ c), (h c).2⟩)
      (Cert.KernelIdeal.Launched.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11, h12, h13, h14, h15⟩ := hagree c
    rw [Cert.ReferenceIdeal.Read.val_main_v55_eq, h0, h1, h2, h3, h4, h5, h6, h7, h8, h9, h10, h11, h12, h13, h14, h15]
    exact reference_result _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
